-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x196x576 : Shape := ⟨3, ![256, 196, 576]⟩
abbrev S576 : Shape := ⟨1, ![576]⟩
abbrev S576x3456 : Shape := ⟨2, ![576, 3456]⟩
abbrev S3456 : Shape := ⟨1, ![3456]⟩
abbrev S2304x576 : Shape := ⟨2, ![2304, 576]⟩
abbrev S18x196 : Shape := ⟨2, ![18, 196]⟩
abbrev S196x196 : Shape := ⟨2, ![196, 196]⟩
abbrev S_ : Shape := ⟨0, ![]⟩

class Facts : Prop where
  bcast_S_S256x196x576 : S_.BroadcastsInDim S256x196x576 (![] : Fin 0 → Fin S256x196x576.rank)
  reducesTo_S256x196x576_S_d0_1_2 : S256x196x576.ReducesTo [0, 1, 2] S_
  h_S_ : 0 < S_.numel
  bcast_S_S576 : S_.BroadcastsInDim S576 (![] : Fin 0 → Fin S576.rank)
  reducesTo_S576_S_d0 : S576.ReducesTo [0] S_
  bcast_S_S576x3456 : S_.BroadcastsInDim S576x3456 (![] : Fin 0 → Fin S576x3456.rank)
  reducesTo_S576x3456_S_d0_1 : S576x3456.ReducesTo [0, 1] S_
  bcast_S_S3456 : S_.BroadcastsInDim S3456 (![] : Fin 0 → Fin S3456.rank)
  reducesTo_S3456_S_d0 : S3456.ReducesTo [0] S_
  bcast_S_S2304x576 : S_.BroadcastsInDim S2304x576 (![] : Fin 0 → Fin S2304x576.rank)
  reducesTo_S2304x576_S_d0_1 : S2304x576.ReducesTo [0, 1] S_
  bcast_S_S18x196 : S_.BroadcastsInDim S18x196 (![] : Fin 0 → Fin S18x196.rank)
  reducesTo_S18x196_S_d0_1 : S18x196.ReducesTo [0, 1] S_

variable [Facts]

def fn_part2 {F : FTy → Type} [FloatOps F] (main_arg7 : FVec F S18x196 .f32) (main_v33 : IVec S_ 1) : IVec S_ 1 :=
  let main_v34 : FVec F S18x196 .f32 := Host.absf main_arg7
  let main_cst_12 : FVec F S_ .f32 := constant S_ .f32 0x7F800000#32
  let main_v35 : FVec F S18x196 .f32 := broadcastInDim S18x196 ![] bcast_S_S18x196 main_cst_12
  let main_v36 : IVec S18x196 1 := cmpf .olt main_v34 main_v35
  let main_c_13 : IVec S_ 1 := constantI S_ 1 1#1
  let main_v37 : IVec S_ 1 := (fun x v => Host.reduce IntOp.andi x v reducesTo_S18x196_S_d0_1 h_S_) main_v36 main_c_13
  let main_v38 : IVec S_ 1 := andi main_v33 main_v37
  main_v38

def fn_part1 {F : FTy → Type} [FloatOps F] (main_arg4 : FVec F S3456 .f32) (main_arg5 : FVec F S2304x576 .f32) (main_arg6 : FVec F S576 .f32) (main_arg7 : FVec F S18x196 .f32) (main_v13 : IVec S_ 1) (main_v16 : IVec S576x3456 1) : IVec S_ 1 :=
  let main_c_5 : IVec S_ 1 := constantI S_ 1 1#1
  let main_v17 : IVec S_ 1 := (fun x v => Host.reduce IntOp.andi x v reducesTo_S576x3456_S_d0_1 h_S_) main_v16 main_c_5
  let main_v18 : IVec S_ 1 := andi main_v13 main_v17
  let main_v19 : FVec F S3456 .f32 := Host.absf main_arg4
  let main_cst_6 : FVec F S_ .f32 := constant S_ .f32 0x7F800000#32
  let main_v20 : FVec F S3456 .f32 := broadcastInDim S3456 ![] bcast_S_S3456 main_cst_6
  let main_v21 : IVec S3456 1 := cmpf .olt main_v19 main_v20
  let main_c_7 : IVec S_ 1 := constantI S_ 1 1#1
  let main_v22 : IVec S_ 1 := (fun x v => Host.reduce IntOp.andi x v reducesTo_S3456_S_d0 h_S_) main_v21 main_c_7
  let main_v23 : IVec S_ 1 := andi main_v18 main_v22
  let main_v24 : FVec F S2304x576 .f32 := Host.absf main_arg5
  let main_cst_8 : FVec F S_ .f32 := constant S_ .f32 0x7F800000#32
  let main_v25 : FVec F S2304x576 .f32 := broadcastInDim S2304x576 ![] bcast_S_S2304x576 main_cst_8
  let main_v26 : IVec S2304x576 1 := cmpf .olt main_v24 main_v25
  let main_c_9 : IVec S_ 1 := constantI S_ 1 1#1
  let main_v27 : IVec S_ 1 := (fun x v => Host.reduce IntOp.andi x v reducesTo_S2304x576_S_d0_1 h_S_) main_v26 main_c_9
  let main_v28 : IVec S_ 1 := andi main_v23 main_v27
  let main_v29 : FVec F S576 .f32 := Host.absf main_arg6
  let main_cst_10 : FVec F S_ .f32 := constant S_ .f32 0x7F800000#32
  let main_v30 : FVec F S576 .f32 := broadcastInDim S576 ![] bcast_S_S576 main_cst_10
  let main_v31 : IVec S576 1 := cmpf .olt main_v29 main_v30
  let main_c_11 : IVec S_ 1 := constantI S_ 1 1#1
  let main_v32 : IVec S_ 1 := (fun x v => Host.reduce IntOp.andi x v reducesTo_S576_S_d0 h_S_) main_v31 main_c_11
  let main_v33 : IVec S_ 1 := andi main_v28 main_v32
  fn_part2 (F := F) main_arg7 main_v33

def fn {F : FTy → Type} [FloatOps F] (main_arg0 : FVec F S256x196x576 .f32) (main_arg1 : FVec F S576 .f32) (main_arg2 : FVec F S576 .f32) (main_arg3 : FVec F S576x3456 .f32) (main_arg4 : FVec F S3456 .f32) (main_arg5 : FVec F S2304x576 .f32) (main_arg6 : FVec F S576 .f32) (main_arg7 : FVec F S18x196 .f32) (main_arg8 : IVec S196x196 32) : IVec S_ 1 :=
  let main_v0 : FVec F S256x196x576 .f32 := Host.absf main_arg0
  let main_cst : FVec F S_ .f32 := constant S_ .f32 0x7F800000#32
  let main_v1 : FVec F S256x196x576 .f32 := broadcastInDim S256x196x576 ![] bcast_S_S256x196x576 main_cst
  let main_v2 : IVec S256x196x576 1 := cmpf .olt main_v0 main_v1
  let main_c : IVec S_ 1 := constantI S_ 1 1#1
  let main_v3 : IVec S_ 1 := (fun x v => Host.reduce IntOp.andi x v reducesTo_S256x196x576_S_d0_1_2 h_S_) main_v2 main_c
  let main_v4 : FVec F S576 .f32 := Host.absf main_arg1
  let main_cst_0 : FVec F S_ .f32 := constant S_ .f32 0x7F800000#32
  let main_v5 : FVec F S576 .f32 := broadcastInDim S576 ![] bcast_S_S576 main_cst_0
  let main_v6 : IVec S576 1 := cmpf .olt main_v4 main_v5
  let main_c_1 : IVec S_ 1 := constantI S_ 1 1#1
  let main_v7 : IVec S_ 1 := (fun x v => Host.reduce IntOp.andi x v reducesTo_S576_S_d0 h_S_) main_v6 main_c_1
  let main_v8 : IVec S_ 1 := andi main_v3 main_v7
  let main_v9 : FVec F S576 .f32 := Host.absf main_arg2
  let main_cst_2 : FVec F S_ .f32 := constant S_ .f32 0x7F800000#32
  let main_v10 : FVec F S576 .f32 := broadcastInDim S576 ![] bcast_S_S576 main_cst_2
  let main_v11 : IVec S576 1 := cmpf .olt main_v9 main_v10
  let main_c_3 : IVec S_ 1 := constantI S_ 1 1#1
  let main_v12 : IVec S_ 1 := (fun x v => Host.reduce IntOp.andi x v reducesTo_S576_S_d0 h_S_) main_v11 main_c_3
  let main_v13 : IVec S_ 1 := andi main_v8 main_v12
  let main_v14 : FVec F S576x3456 .f32 := Host.absf main_arg3
  let main_cst_4 : FVec F S_ .f32 := constant S_ .f32 0x7F800000#32
  let main_v15 : FVec F S576x3456 .f32 := broadcastInDim S576x3456 ![] bcast_S_S576x3456 main_cst_4
  let main_v16 : IVec S576x3456 1 := cmpf .olt main_v14 main_v15
  fn_part1 (F := F) main_arg4 main_arg5 main_arg6 main_arg7 main_v13 main_v16
-- ==== Kernel.lean ====
abbrev S256x196x576 : Shape := ⟨3, ![256, 196, 576]⟩
abbrev S576 : Shape := ⟨1, ![576]⟩
abbrev S576x3456 : Shape := ⟨2, ![576, 3456]⟩
abbrev S3456 : Shape := ⟨1, ![3456]⟩
abbrev S2304x576 : Shape := ⟨2, ![2304, 576]⟩
abbrev S18x196 : Shape := ⟨2, ![18, 196]⟩
abbrev S196x196 : Shape := ⟨2, ![196, 196]⟩
abbrev S_ : Shape := ⟨0, ![]⟩
abbrev S196x196x1 : Shape := ⟨3, ![196, 196, 1]⟩
abbrev S18x196x196 : Shape := ⟨3, ![18, 196, 196]⟩
abbrev S4x196x576 : Shape := ⟨3, ![4, 196, 576]⟩
abbrev S4x196 : Shape := ⟨2, ![4, 196]⟩
abbrev S4x196x1 : Shape := ⟨3, ![4, 196, 1]⟩
abbrev S1x1x576 : Shape := ⟨3, ![1, 1, 576]⟩
abbrev S784x576 : Shape := ⟨2, ![784, 576]⟩
abbrev S784x3456 : Shape := ⟨2, ![784, 3456]⟩
abbrev S1x3456 : Shape := ⟨2, ![1, 3456]⟩
abbrev S4x196x3456 : Shape := ⟨3, ![4, 196, 3456]⟩
abbrev S4x196x32 : Shape := ⟨3, ![4, 196, 32]⟩
abbrev S4x196x128 : Shape := ⟨3, ![4, 196, 128]⟩
abbrev S4x196x196 : Shape := ⟨3, ![4, 196, 196]⟩
abbrev S1x196x196 : Shape := ⟨3, ![1, 196, 196]⟩
abbrev S4x196x2304 : Shape := ⟨3, ![4, 196, 2304]⟩
abbrev S784x2304 : Shape := ⟨2, ![784, 2304]⟩
abbrev S1x576 : Shape := ⟨2, ![1, 576]⟩

abbrev nBuf : Space → Nat
  | .hbm => 21
  | .vmem => 11
  | .smem => 0
  | _ => 0

abbrev bufTy : (tb : Table) → Fin (tcTables nBuf tb) → BufTy
  | .hbm, ⟨0, _⟩ => ⟨S256x196x576, .f32⟩
  | .hbm, ⟨1, _⟩ => ⟨S576, .f32⟩
  | .hbm, ⟨2, _⟩ => ⟨S576, .f32⟩
  | .hbm, ⟨3, _⟩ => ⟨S576x3456, .f32⟩
  | .hbm, ⟨4, _⟩ => ⟨S3456, .f32⟩
  | .hbm, ⟨5, _⟩ => ⟨S2304x576, .f32⟩
  | .hbm, ⟨6, _⟩ => ⟨S576, .f32⟩
  | .hbm, ⟨7, _⟩ => ⟨S18x196, .f32⟩
  | .hbm, ⟨8, _⟩ => ⟨S196x196, .i32⟩
  | .hbm, ⟨9, _⟩ => ⟨S_, .i32⟩
  | .hbm, ⟨10, _⟩ => ⟨S196x196, .i32⟩
  | .hbm, ⟨11, _⟩ => ⟨S196x196, .i1⟩
  | .hbm, ⟨12, _⟩ => ⟨S_, .i32⟩
  | .hbm, ⟨13, _⟩ => ⟨S196x196, .i32⟩
  | .hbm, ⟨14, _⟩ => ⟨S196x196, .i32⟩
  | .hbm, ⟨15, _⟩ => ⟨S196x196, .i32⟩
  | .hbm, ⟨16, _⟩ => ⟨S196x196x1, .i32⟩
  | .hbm, ⟨17, _⟩ => ⟨S18x196x196, .f32⟩
  | .hbm, ⟨18, _⟩ => ⟨S576x3456, .bf16⟩
  | .hbm, ⟨19, _⟩ => ⟨S2304x576, .bf16⟩
  | .hbm, ⟨20, _⟩ => ⟨S256x196x576, .f32⟩
  | .local _ .vmem, ⟨0, _⟩ => ⟨S4x196x576, .f32⟩
  | .local _ .vmem, ⟨1, _⟩ => ⟨S4x196x576, .f32⟩
  | .local _ .vmem, ⟨2, _⟩ => ⟨S576, .f32⟩
  | .local _ .vmem, ⟨3, _⟩ => ⟨S576, .f32⟩
  | .local _ .vmem, ⟨4, _⟩ => ⟨S576x3456, .bf16⟩
  | .local _ .vmem, ⟨5, _⟩ => ⟨S3456, .f32⟩
  | .local _ .vmem, ⟨6, _⟩ => ⟨S2304x576, .bf16⟩
  | .local _ .vmem, ⟨7, _⟩ => ⟨S576, .f32⟩
  | .local _ .vmem, ⟨8, _⟩ => ⟨S18x196x196, .f32⟩
  | .local _ .vmem, ⟨9, _⟩ => ⟨S4x196x576, .f32⟩
  | .local _ .vmem, ⟨10, _⟩ => ⟨S4x196x576, .f32⟩
  | _, _ => ⟨S256x196x576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x196x576 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S576 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S576 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S576x3456 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3456 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2304x576 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S576 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S18x196x196 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4x196x576 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S_S196x196 : S_.BroadcastsInDim S196x196 (![] : Fin 0 → Fin S196x196.rank)
  bcast_S196x196_S196x196x1_0_1 : S196x196.BroadcastsInDim S196x196x1 (![0, 1] : Fin 2 → Fin S196x196x1.rank)
  bitsLt_bf16_f32 : FTy.bits .bf16 < FTy.bits .f32
  inb_S4x196x576_S4x196x576_0_0_0 : ∀ a, (![0, 0, 0] : Fin 3 → Nat) a + S4x196x576.size a ≤ S4x196x576.size a
  h_S4x196x576 : 0 < S4x196x576.numel
  reduces_S4x196x576_S4x196 : S4x196x576.Reduces [2] S4x196
  shapeCasts_S4x196_S4x196x1 : S4x196.ShapeCasts S4x196x1
  broadcasts_S4x196x1_S4x196x576 : S4x196x1.Broadcasts S4x196x576
  inb_S576_S576_0 : ∀ a, (![0] : Fin 1 → Nat) a + S576.size a ≤ S576.size a
  h_S576 : 0 < S576.numel
  shapeCasts_S576_S1x1x576 : S576.ShapeCasts S1x1x576
  broadcasts_S1x1x576_S4x196x576 : S1x1x576.Broadcasts S4x196x576
  shapeCasts_S4x196x576_S784x576 : S4x196x576.ShapeCasts S784x576
  inb_S576x3456_S576x3456_0_0 : ∀ a, (![0, 0] : Fin 2 → Nat) a + S576x3456.size a ≤ S576x3456.size a
  h_S576x3456 : 0 < S576x3456.numel
  shapeCasts_S576x3456_S576x3456 : S576x3456.ShapeCasts S576x3456
  inb_S3456_S3456_0 : ∀ a, (![0] : Fin 1 → Nat) a + S3456.size a ≤ S3456.size a
  h_S3456 : 0 < S3456.numel
  shapeCasts_S3456_S1x3456 : S3456.ShapeCasts S1x3456
  broadcasts_S1x3456_S784x3456 : S1x3456.Broadcasts S784x3456
  shapeCasts_S784x3456_S4x196x3456 : S784x3456.ShapeCasts S4x196x3456
  slices_S4x196x3456_o0_0_0_S4x196x32 : S4x196x3456.Slices ![0, 0, 0] S4x196x32
  slices_S4x196x3456_o0_0_32_S4x196x32 : S4x196x3456.Slices ![0, 0, 32] S4x196x32
  slices_S4x196x3456_o0_0_64_S4x196x128 : S4x196x3456.Slices ![0, 0, 64] S4x196x128
  inb_S18x196x196_S1x196x196_0_0_0 : ∀ a, (![0, 0, 0] : Fin 3 → Nat) a + S1x196x196.size a ≤ S18x196x196.size a
  h_S1x196x196 : 0 < S1x196x196.numel
  shapeCasts_S1x196x196_S196x196 : S1x196x196.ShapeCasts S196x196
  shapeCasts_S196x196_S1x196x196 : S196x196.ShapeCasts S1x196x196
  broadcasts_S1x196x196_S4x196x196 : S1x196x196.Broadcasts S4x196x196
  reduces_S4x196x196_S4x196 : S4x196x196.Reduces [2] S4x196
  broadcasts_S4x196x1_S4x196x196 : S4x196x1.Broadcasts S4x196x196
  slices_S4x196x3456_o0_0_192_S4x196x32 : S4x196x3456.Slices ![0, 0, 192] S4x196x32
  slices_S4x196x3456_o0_0_224_S4x196x32 : S4x196x3456.Slices ![0, 0, 224] S4x196x32
  slices_S4x196x3456_o0_0_256_S4x196x128 : S4x196x3456.Slices ![0, 0, 256] S4x196x128
  inb_S18x196x196_S1x196x196_1_0_0 : ∀ a, (![1, 0, 0] : Fin 3 → Nat) a + S1x196x196.size a ≤ S18x196x196.size a
  slices_S4x196x3456_o0_0_384_S4x196x32 : S4x196x3456.Slices ![0, 0, 384] S4x196x32
  slices_S4x196x3456_o0_0_416_S4x196x32 : S4x196x3456.Slices ![0, 0, 416] S4x196x32
  slices_S4x196x3456_o0_0_448_S4x196x128 : S4x196x3456.Slices ![0, 0, 448] S4x196x128
  inb_S18x196x196_S1x196x196_2_0_0 : ∀ a, (![2, 0, 0] : Fin 3 → Nat) a + S1x196x196.size a ≤ S18x196x196.size a
  slices_S4x196x3456_o0_0_576_S4x196x32 : S4x196x3456.Slices ![0, 0, 576] S4x196x32
  slices_S4x196x3456_o0_0_608_S4x196x32 : S4x196x3456.Slices ![0, 0, 608] S4x196x32
  slices_S4x196x3456_o0_0_640_S4x196x128 : S4x196x3456.Slices ![0, 0, 640] S4x196x128
  inb_S18x196x196_S1x196x196_3_0_0 : ∀ a, (![3, 0, 0] : Fin 3 → Nat) a + S1x196x196.size a ≤ S18x196x196.size a
  slices_S4x196x3456_o0_0_768_S4x196x32 : S4x196x3456.Slices ![0, 0, 768] S4x196x32
  slices_S4x196x3456_o0_0_800_S4x196x32 : S4x196x3456.Slices ![0, 0, 800] S4x196x32
  slices_S4x196x3456_o0_0_832_S4x196x128 : S4x196x3456.Slices ![0, 0, 832] S4x196x128
  inb_S18x196x196_S1x196x196_4_0_0 : ∀ a, (![4, 0, 0] : Fin 3 → Nat) a + S1x196x196.size a ≤ S18x196x196.size a
  slices_S4x196x3456_o0_0_960_S4x196x32 : S4x196x3456.Slices ![0, 0, 960] S4x196x32
  slices_S4x196x3456_o0_0_992_S4x196x32 : S4x196x3456.Slices ![0, 0, 992] S4x196x32
  slices_S4x196x3456_o0_0_1024_S4x196x128 : S4x196x3456.Slices ![0, 0, 1024] S4x196x128
  inb_S18x196x196_S1x196x196_5_0_0 : ∀ a, (![5, 0, 0] : Fin 3 → Nat) a + S1x196x196.size a ≤ S18x196x196.size a
  slices_S4x196x3456_o0_0_1152_S4x196x32 : S4x196x3456.Slices ![0, 0, 1152] S4x196x32
  slices_S4x196x3456_o0_0_1184_S4x196x32 : S4x196x3456.Slices ![0, 0, 1184] S4x196x32
  slices_S4x196x3456_o0_0_1216_S4x196x128 : S4x196x3456.Slices ![0, 0, 1216] S4x196x128
  inb_S18x196x196_S1x196x196_6_0_0 : ∀ a, (![6, 0, 0] : Fin 3 → Nat) a + S1x196x196.size a ≤ S18x196x196.size a
  slices_S4x196x3456_o0_0_1344_S4x196x32 : S4x196x3456.Slices ![0, 0, 1344] S4x196x32
  slices_S4x196x3456_o0_0_1376_S4x196x32 : S4x196x3456.Slices ![0, 0, 1376] S4x196x32
  slices_S4x196x3456_o0_0_1408_S4x196x128 : S4x196x3456.Slices ![0, 0, 1408] S4x196x128
  inb_S18x196x196_S1x196x196_7_0_0 : ∀ a, (![7, 0, 0] : Fin 3 → Nat) a + S1x196x196.size a ≤ S18x196x196.size a
  slices_S4x196x3456_o0_0_1536_S4x196x32 : S4x196x3456.Slices ![0, 0, 1536] S4x196x32
  slices_S4x196x3456_o0_0_1568_S4x196x32 : S4x196x3456.Slices ![0, 0, 1568] S4x196x32
  slices_S4x196x3456_o0_0_1600_S4x196x128 : S4x196x3456.Slices ![0, 0, 1600] S4x196x128
  inb_S18x196x196_S1x196x196_8_0_0 : ∀ a, (![8, 0, 0] : Fin 3 → Nat) a + S1x196x196.size a ≤ S18x196x196.size a
  slices_S4x196x3456_o0_0_1728_S4x196x32 : S4x196x3456.Slices ![0, 0, 1728] S4x196x32
  slices_S4x196x3456_o0_0_1760_S4x196x32 : S4x196x3456.Slices ![0, 0, 1760] S4x196x32
  slices_S4x196x3456_o0_0_1792_S4x196x128 : S4x196x3456.Slices ![0, 0, 1792] S4x196x128
  inb_S18x196x196_S1x196x196_9_0_0 : ∀ a, (![9, 0, 0] : Fin 3 → Nat) a + S1x196x196.size a ≤ S18x196x196.size a
  slices_S4x196x3456_o0_0_1920_S4x196x32 : S4x196x3456.Slices ![0, 0, 1920] S4x196x32
  slices_S4x196x3456_o0_0_1952_S4x196x32 : S4x196x3456.Slices ![0, 0, 1952] S4x196x32
  slices_S4x196x3456_o0_0_1984_S4x196x128 : S4x196x3456.Slices ![0, 0, 1984] S4x196x128
  inb_S18x196x196_S1x196x196_10_0_0 : ∀ a, (![10, 0, 0] : Fin 3 → Nat) a + S1x196x196.size a ≤ S18x196x196.size a
  slices_S4x196x3456_o0_0_2112_S4x196x32 : S4x196x3456.Slices ![0, 0, 2112] S4x196x32
  slices_S4x196x3456_o0_0_2144_S4x196x32 : S4x196x3456.Slices ![0, 0, 2144] S4x196x32
  slices_S4x196x3456_o0_0_2176_S4x196x128 : S4x196x3456.Slices ![0, 0, 2176] S4x196x128
  inb_S18x196x196_S1x196x196_11_0_0 : ∀ a, (![11, 0, 0] : Fin 3 → Nat) a + S1x196x196.size a ≤ S18x196x196.size a
  slices_S4x196x3456_o0_0_2304_S4x196x32 : S4x196x3456.Slices ![0, 0, 2304] S4x196x32
  slices_S4x196x3456_o0_0_2336_S4x196x32 : S4x196x3456.Slices ![0, 0, 2336] S4x196x32
  slices_S4x196x3456_o0_0_2368_S4x196x128 : S4x196x3456.Slices ![0, 0, 2368] S4x196x128
  inb_S18x196x196_S1x196x196_12_0_0 : ∀ a, (![12, 0, 0] : Fin 3 → Nat) a + S1x196x196.size a ≤ S18x196x196.size a
  slices_S4x196x3456_o0_0_2496_S4x196x32 : S4x196x3456.Slices ![0, 0, 2496] S4x196x32
  slices_S4x196x3456_o0_0_2528_S4x196x32 : S4x196x3456.Slices ![0, 0, 2528] S4x196x32
  slices_S4x196x3456_o0_0_2560_S4x196x128 : S4x196x3456.Slices ![0, 0, 2560] S4x196x128
  inb_S18x196x196_S1x196x196_13_0_0 : ∀ a, (![13, 0, 0] : Fin 3 → Nat) a + S1x196x196.size a ≤ S18x196x196.size a
  slices_S4x196x3456_o0_0_2688_S4x196x32 : S4x196x3456.Slices ![0, 0, 2688] S4x196x32
  slices_S4x196x3456_o0_0_2720_S4x196x32 : S4x196x3456.Slices ![0, 0, 2720] S4x196x32
  slices_S4x196x3456_o0_0_2752_S4x196x128 : S4x196x3456.Slices ![0, 0, 2752] S4x196x128
  inb_S18x196x196_S1x196x196_14_0_0 : ∀ a, (![14, 0, 0] : Fin 3 → Nat) a + S1x196x196.size a ≤ S18x196x196.size a
  slices_S4x196x3456_o0_0_2880_S4x196x32 : S4x196x3456.Slices ![0, 0, 2880] S4x196x32
  slices_S4x196x3456_o0_0_2912_S4x196x32 : S4x196x3456.Slices ![0, 0, 2912] S4x196x32
  slices_S4x196x3456_o0_0_2944_S4x196x128 : S4x196x3456.Slices ![0, 0, 2944] S4x196x128
  inb_S18x196x196_S1x196x196_15_0_0 : ∀ a, (![15, 0, 0] : Fin 3 → Nat) a + S1x196x196.size a ≤ S18x196x196.size a
  slices_S4x196x3456_o0_0_3072_S4x196x32 : S4x196x3456.Slices ![0, 0, 3072] S4x196x32
  slices_S4x196x3456_o0_0_3104_S4x196x32 : S4x196x3456.Slices ![0, 0, 3104] S4x196x32
  slices_S4x196x3456_o0_0_3136_S4x196x128 : S4x196x3456.Slices ![0, 0, 3136] S4x196x128
  inb_S18x196x196_S1x196x196_16_0_0 : ∀ a, (![16, 0, 0] : Fin 3 → Nat) a + S1x196x196.size a ≤ S18x196x196.size a
  slices_S4x196x3456_o0_0_3264_S4x196x32 : S4x196x3456.Slices ![0, 0, 3264] S4x196x32
  slices_S4x196x3456_o0_0_3296_S4x196x32 : S4x196x3456.Slices ![0, 0, 3296] S4x196x32
  slices_S4x196x3456_o0_0_3328_S4x196x128 : S4x196x3456.Slices ![0, 0, 3328] S4x196x128
  inb_S18x196x196_S1x196x196_17_0_0 : ∀ a, (![17, 0, 0] : Fin 3 → Nat) a + S1x196x196.size a ≤ S18x196x196.size a
  concatenates_S4x196x128_S4x196x128_S4x196x128_S4x196x128_S4x196x128_S4x196x128_S4x196x128_S4x196x128_S4x196x128_S4x196x128_S4x196x128_S4x196x128_S4x196x128_S4x196x128_S4x196x128_S4x196x128_S4x196x128_S4x196x128_S4x196x2304_d2 : Shape.Concatenates [S4x196x128, S4x196x128, S4x196x128, S4x196x128, S4x196x128, S4x196x128, S4x196x128, S4x196x128, S4x196x128, S4x196x128, S4x196x128, S4x196x128, S4x196x128, S4x196x128, S4x196x128, S4x196x128, S4x196x128, S4x196x128] S4x196x2304 2
  shapeCasts_S4x196x2304_S784x2304 : S4x196x2304.ShapeCasts S784x2304
  inb_S2304x576_S2304x576_0_0 : ∀ a, (![0, 0] : Fin 2 → Nat) a + S2304x576.size a ≤ S2304x576.size a
  h_S2304x576 : 0 < S2304x576.numel
  shapeCasts_S2304x576_S2304x576 : S2304x576.ShapeCasts S2304x576
  shapeCasts_S576_S1x576 : S576.ShapeCasts S1x576
  broadcasts_S1x576_S784x576 : S1x576.Broadcasts S784x576
  shapeCasts_S784x576_S4x196x576 : S784x576.ShapeCasts S4x196x576
  gather_S18x196_S196x196x1_S18x196x196_0_1_n_n_1_2_181_wf : GatherDims.WF S18x196 S196x196x1 S18x196x196 [0] [1] [] [1] [] 2 ![18, 1]
  dot_S784x576_S576x3456_S784x3456_1_0_0_1_n_n_wf : DotDims.WF S784x576 S576x3456 S784x3456 [1] [0] [0] [1] [] []
  dot_S4x196x32_S4x196x32_S4x196x196_2_2_1_1_0_0_wf : DotDims.WF S4x196x32 S4x196x32 S4x196x196 [2] [2] [1] [1] [0] [0]
  dot_S4x196x196_S4x196x128_S4x196x128_2_1_1_2_0_0_wf : DotDims.WF S4x196x196 S4x196x128 S4x196x128 [2] [1] [1] [2] [0] [0]
  dot_S784x2304_S2304x576_S784x576_1_0_0_1_n_n_wf : DotDims.WF S784x2304 S2304x576 S784x576 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x196x576.size a ≤ S256x196x576.size a
  hwx0_0 : ∀ i : grid0.Coords, EltTy.bits .f32 = 32 ∨ (Rect.block (s := S256x196x576) S4x196x576.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S576.size a ≤ S576.size a
  hwx0_1 : ∀ i : grid0.Coords, EltTy.bits .f32 = 32 ∨ (Rect.block (s := S576) S576.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S576.size a ≤ S576.size a
  hwx0_2 : ∀ i : grid0.Coords, EltTy.bits .f32 = 32 ∨ (Rect.block (s := S576) S576.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S576x3456.size a ≤ S576x3456.size a
  hwx0_3 : ∀ i : grid0.Coords, EltTy.bits .bf16 = 32 ∨ (Rect.block (s := S576x3456) S576x3456.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3456.size a ≤ S3456.size a
  hwx0_4 : ∀ i : grid0.Coords, EltTy.bits .f32 = 32 ∨ (Rect.block (s := S3456) S3456.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2304x576.size a ≤ S2304x576.size a
  hwx0_5 : ∀ i : grid0.Coords, EltTy.bits .bf16 = 32 ∨ (Rect.block (s := S2304x576) S2304x576.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S576.size a ≤ S576.size a
  hwx0_6 : ∀ i : grid0.Coords, EltTy.bits .f32 = 32 ∨ (Rect.block (s := S576) S576.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S18x196x196.size a ≤ S18x196x196.size a
  hwx0_7 : ∀ i : grid0.Coords, EltTy.bits .f32 = 32 ∨ (Rect.block (s := S18x196x196) S18x196x196.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4x196x576.size a ≤ S256x196x576.size a
  hwx0_8 : ∀ i : grid0.Coords, EltTy.bits .f32 = 32 ∨ (Rect.block (s := S256x196x576) S4x196x576.size (cc0_transform_8 i) (hinb0_8 i)).WholeWords (EltTy.packing .f32)

variable [Facts₀]

def gather_S18x196_S196x196x1_S18x196x196_0_1_n_n_1_2_181 : GatherDims S18x196 S196x196x1 S18x196x196 where
  offsetDims := [0]
  collapsedSliceDims := [1]
  operandBatchingDims := []
  startIndicesBatchingDims := []
  startIndexMap := [1]
  indexVectorDim := 2
  sliceSizes := ![18, 1]
  wf := gather_S18x196_S196x196x1_S18x196x196_0_1_n_n_1_2_181_wf
def dot_S784x576_S576x3456_S784x3456_1_0_0_1_n_n : DotDims S784x576 S576x3456 S784x3456 where
  lhsContracting := [1]
  rhsContracting := [0]
  lhsNonContracting := [0]
  rhsNonContracting := [1]
  lhsBatch := []
  rhsBatch := []
  wf := dot_S784x576_S576x3456_S784x3456_1_0_0_1_n_n_wf
def dot_S4x196x32_S4x196x32_S4x196x196_2_2_1_1_0_0 : DotDims S4x196x32 S4x196x32 S4x196x196 where
  lhsContracting := [2]
  rhsContracting := [2]
  lhsNonContracting := [1]
  rhsNonContracting := [1]
  lhsBatch := [0]
  rhsBatch := [0]
  wf := dot_S4x196x32_S4x196x32_S4x196x196_2_2_1_1_0_0_wf
def dot_S4x196x196_S4x196x128_S4x196x128_2_1_1_2_0_0 : DotDims S4x196x196 S4x196x128 S4x196x128 where
  lhsContracting := [2]
  rhsContracting := [1]
  lhsNonContracting := [1]
  rhsNonContracting := [2]
  lhsBatch := [0]
  rhsBatch := [0]
  wf := dot_S4x196x196_S4x196x128_S4x196x128_2_1_1_2_0_0_wf
def dot_S784x2304_S2304x576_S784x576_1_0_0_1_n_n : DotDims S784x2304 S2304x576 S784x576 where
  lhsContracting := [1]
  rhsContracting := [0]
  lhsNonContracting := [0]
  rhsNonContracting := [1]
  lhsBatch := []
  rhsBatch := []
  wf := dot_S784x2304_S2304x576_S784x576_1_0_0_1_n_n_wf

abbrev win0_0 : Pipeline.Window sig grid0 :=
  Pipeline.Window.ofSpec (Memref.whole main_arg0) S4x196x576.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S576.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S576.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S576x3456.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S3456.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S2304x576.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S576.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S18x196x196.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S4x196x576.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S256x196x576 : Shape := ⟨3, ![256, 196, 576]⟩
abbrev S576 : Shape := ⟨1, ![576]⟩
abbrev S576x3456 : Shape := ⟨2, ![576, 3456]⟩
abbrev S3456 : Shape := ⟨1, ![3456]⟩
abbrev S2304x576 : Shape := ⟨2, ![2304, 576]⟩
abbrev S18x196 : Shape := ⟨2, ![18, 196]⟩
abbrev S196x196 : Shape := ⟨2, ![196, 196]⟩
abbrev S_ : Shape := ⟨0, ![]⟩
abbrev S256x196 : Shape := ⟨2, ![256, 196]⟩
abbrev S256x196x1 : Shape := ⟨3, ![256, 196, 1]⟩
abbrev S1x1x576 : Shape := ⟨3, ![1, 1, 576]⟩
abbrev S256x196x3456 : Shape := ⟨3, ![256, 196, 3456]⟩
abbrev S1x1x3456 : Shape := ⟨3, ![1, 1, 3456]⟩
abbrev S256x196x18x192 : Shape := ⟨4, ![256, 196, 18, 192]⟩
abbrev S256x18x196x192 : Shape := ⟨4, ![256, 18, 196, 192]⟩
abbrev S256x18x196x32 : Shape := ⟨4, ![256, 18, 196, 32]⟩
abbrev S256x18x196x128 : Shape := ⟨4, ![256, 18, 196, 128]⟩
abbrev S196x196x1 : Shape := ⟨3, ![196, 196, 1]⟩
abbrev S18x196x196 : Shape := ⟨3, ![18, 196, 196]⟩
abbrev S256x18x196x196 : Shape := ⟨4, ![256, 18, 196, 196]⟩
abbrev S1x18x196x196 : Shape := ⟨4, ![1, 18, 196, 196]⟩
abbrev S256x18x196 : Shape := ⟨3, ![256, 18, 196]⟩
abbrev S256x18x196x1 : Shape := ⟨4, ![256, 18, 196, 1]⟩
abbrev S256x196x18x128 : Shape := ⟨4, ![256, 196, 18, 128]⟩
abbrev S256x196x2304 : Shape := ⟨3, ![256, 196, 2304]⟩

abbrev nBuf : Space → Nat
  | .hbm => 84
  | .vmem => 0
  | .smem => 0
  | _ => 0

abbrev bufTy : (tb : Table) → Fin (tcTables nBuf tb) → BufTy
  | .hbm, ⟨0, _⟩ => ⟨S256x196x576, .f32⟩
  | .hbm, ⟨1, _⟩ => ⟨S576, .f32⟩
  | .hbm, ⟨2, _⟩ => ⟨S576, .f32⟩
  | .hbm, ⟨3, _⟩ => ⟨S576x3456, .f32⟩
  | .hbm, ⟨4, _⟩ => ⟨S3456, .f32⟩
  | .hbm, ⟨5, _⟩ => ⟨S2304x576, .f32⟩
  | .hbm, ⟨6, _⟩ => ⟨S576, .f32⟩
  | .hbm, ⟨7, _⟩ => ⟨S18x196, .f32⟩
  | .hbm, ⟨8, _⟩ => ⟨S196x196, .i32⟩
  | .hbm, ⟨9, _⟩ => ⟨S_, .f32⟩
  | .hbm, ⟨10, _⟩ => ⟨S256x196, .f32⟩
  | .hbm, ⟨11, _⟩ => ⟨S256x196x1, .f32⟩
  | .hbm, ⟨12, _⟩ => ⟨S_, .f32⟩
  | .hbm, ⟨13, _⟩ => ⟨S256x196x1, .f32⟩
  | .hbm, ⟨14, _⟩ => ⟨S256x196x1, .f32⟩
  | .hbm, ⟨15, _⟩ => ⟨S256x196x576, .f32⟩
  | .hbm, ⟨16, _⟩ => ⟨S256x196x576, .f32⟩
  | .hbm, ⟨17, _⟩ => ⟨S256x196x576, .f32⟩
  | .hbm, ⟨18, _⟩ => ⟨S_, .f32⟩
  | .hbm, ⟨19, _⟩ => ⟨S256x196, .f32⟩
  | .hbm, ⟨20, _⟩ => ⟨S256x196x1, .f32⟩
  | .hbm, ⟨21, _⟩ => ⟨S_, .f32⟩
  | .hbm, ⟨22, _⟩ => ⟨S256x196x1, .f32⟩
  | .hbm, ⟨23, _⟩ => ⟨S256x196x1, .f32⟩
  | .hbm, ⟨24, _⟩ => ⟨S256x196x576, .f32⟩
  | .hbm, ⟨25, _⟩ => ⟨S256x196x576, .f32⟩
  | .hbm, ⟨26, _⟩ => ⟨S_, .f32⟩
  | .hbm, ⟨27, _⟩ => ⟨S256x196x1, .f32⟩
  | .hbm, ⟨28, _⟩ => ⟨S256x196x1, .f32⟩
  | .hbm, ⟨29, _⟩ => ⟨S256x196x1, .f32⟩
  | .hbm, ⟨30, _⟩ => ⟨S256x196x576, .f32⟩
  | .hbm, ⟨31, _⟩ => ⟨S256x196x576, .f32⟩
  | .hbm, ⟨32, _⟩ => ⟨S1x1x576, .f32⟩
  | .hbm, ⟨33, _⟩ => ⟨S256x196x576, .f32⟩
  | .hbm, ⟨34, _⟩ => ⟨S256x196x576, .f32⟩
  | .hbm, ⟨35, _⟩ => ⟨S1x1x576, .f32⟩
  | .hbm, ⟨36, _⟩ => ⟨S256x196x576, .f32⟩
  | .hbm, ⟨37, _⟩ => ⟨S256x196x576, .f32⟩
  | .hbm, ⟨38, _⟩ => ⟨S256x196x3456, .f32⟩
  | .hbm, ⟨39, _⟩ => ⟨S1x1x3456, .f32⟩
  | .hbm, ⟨40, _⟩ => ⟨S256x196x3456, .f32⟩
  | .hbm, ⟨41, _⟩ => ⟨S256x196x3456, .f32⟩
  | .hbm, ⟨42, _⟩ => ⟨S256x196x18x192, .f32⟩
  | .hbm, ⟨43, _⟩ => ⟨S256x18x196x192, .f32⟩
  | .hbm, ⟨44, _⟩ => ⟨S256x18x196x32, .f32⟩
  | .hbm, ⟨45, _⟩ => ⟨S256x18x196x32, .f32⟩
  | .hbm, ⟨46, _⟩ => ⟨S256x18x196x128, .f32⟩
  | .hbm, ⟨47, _⟩ => ⟨S_, .i32⟩
  | .hbm, ⟨48, _⟩ => ⟨S196x196, .i32⟩
  | .hbm, ⟨49, _⟩ => ⟨S196x196, .i1⟩
  | .hbm, ⟨50, _⟩ => ⟨S_, .i32⟩
  | .hbm, ⟨51, _⟩ => ⟨S196x196, .i32⟩
  | .hbm, ⟨52, _⟩ => ⟨S196x196, .i32⟩
  | .hbm, ⟨53, _⟩ => ⟨S196x196, .i32⟩
  | .hbm, ⟨54, _⟩ => ⟨S196x196x1, .i32⟩
  | .hbm, ⟨55, _⟩ => ⟨S18x196x196, .f32⟩
  | .hbm, ⟨56, _⟩ => ⟨S256x18x196x196, .f32⟩
  | .hbm, ⟨57, _⟩ => ⟨S_, .f32⟩
  | .hbm, ⟨58, _⟩ => ⟨S256x18x196x196, .f32⟩
  | .hbm, ⟨59, _⟩ => ⟨S256x18x196x196, .f32⟩
  | .hbm, ⟨60, _⟩ => ⟨S1x18x196x196, .f32⟩
  | .hbm, ⟨61, _⟩ => ⟨S256x18x196x196, .f32⟩
  | .hbm, ⟨62, _⟩ => ⟨S256x18x196x196, .f32⟩
  | .hbm, ⟨63, _⟩ => ⟨S_, .f32⟩
  | .hbm, ⟨64, _⟩ => ⟨S256x18x196, .f32⟩
  | .hbm, ⟨65, _⟩ => ⟨S_, .f32⟩
  | .hbm, ⟨66, _⟩ => ⟨S256x18x196, .f32⟩
  | .hbm, ⟨67, _⟩ => ⟨S256x18x196, .f32⟩
  | .hbm, ⟨68, _⟩ => ⟨S256x18x196x1, .f32⟩
  | .hbm, ⟨69, _⟩ => ⟨S256x18x196x196, .f32⟩
  | .hbm, ⟨70, _⟩ => ⟨S256x18x196x196, .f32⟩
  | .hbm, ⟨71, _⟩ => ⟨S256x18x196x196, .f32⟩
  | .hbm, ⟨72, _⟩ => ⟨S_, .f32⟩
  | .hbm, ⟨73, _⟩ => ⟨S256x18x196, .f32⟩
  | .hbm, ⟨74, _⟩ => ⟨S256x18x196x1, .f32⟩
  | .hbm, ⟨75, _⟩ => ⟨S256x18x196x196, .f32⟩
  | .hbm, ⟨76, _⟩ => ⟨S256x18x196x196, .f32⟩
  | .hbm, ⟨77, _⟩ => ⟨S256x18x196x128, .f32⟩
  | .hbm, ⟨78, _⟩ => ⟨S256x196x18x128, .f32⟩
  | .hbm, ⟨79, _⟩ => ⟨S256x196x2304, .f32⟩
  | .hbm, ⟨80, _⟩ => ⟨S256x196x576, .f32⟩
  | .hbm, ⟨81, _⟩ => ⟨S1x1x576, .f32⟩
  | .hbm, ⟨82, _⟩ => ⟨S256x196x576, .f32⟩
  | .hbm, ⟨83, _⟩ => ⟨S256x196x576, .f32⟩
  | _, _ => ⟨S256x196x576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c : Ref sig .tc := ⟨.hbm, 47, rfl⟩
abbrev main_v33 : Ref sig .tc := ⟨.hbm, 48, rfl⟩
abbrev main_v34 : Ref sig .tc := ⟨.hbm, 49, rfl⟩
abbrev main_c_4 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_5 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_6 : Ref sig .tc := ⟨.hbm, 63, rfl⟩
abbrev main_v46 : Ref sig .tc := ⟨.hbm, 64, rfl⟩
abbrev main_cst_7 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_8 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩

abbrev nD : Nat := 1
abbrev τ : Topo := Topo.v7x

variable {F : FTy → Type} [FloatOps F]

class Facts₀ : Prop where
  reducesTo_S256x196x576_S256x196_d2 : S256x196x576.ReducesTo [2] S256x196
  h_S_ : 0 < S_.numel
  bcast_S256x196_S256x196x1_0_1 : S256x196.BroadcastsInDim S256x196x1 (![0, 1] : Fin 2 → Fin S256x196x1.rank)
  bcast_S_S256x196x1 : S_.BroadcastsInDim S256x196x1 (![] : Fin 0 → Fin S256x196x1.rank)
  bcast_S256x196x1_S256x196x576_0_1_2 : S256x196x1.BroadcastsInDim S256x196x576 (![0, 1, 2] : Fin 3 → Fin S256x196x576.rank)
  bcast_S576_S1x1x576_2 : S576.BroadcastsInDim S1x1x576 (![2] : Fin 1 → Fin S1x1x576.rank)
  bcast_S1x1x576_S256x196x576_0_1_2 : S1x1x576.BroadcastsInDim S256x196x576 (![0, 1, 2] : Fin 3 → Fin S256x196x576.rank)
  bcast_S3456_S1x1x3456_2 : S3456.BroadcastsInDim S1x1x3456 (![2] : Fin 1 → Fin S1x1x3456.rank)
  bcast_S1x1x3456_S256x196x3456_0_1_2 : S1x1x3456.BroadcastsInDim S256x196x3456 (![0, 1, 2] : Fin 3 → Fin S256x196x3456.rank)
  shapeCasts_S256x196x3456_S256x196x18x192 : S256x196x3456.ShapeCasts S256x196x18x192
  transposes_S256x196x18x192_S256x18x196x192_0_2_1_3 : S256x196x18x192.Transposes [0, 2, 1, 3] S256x18x196x192
  slices_S256x18x196x192_S256x18x196x32_0_0_0_0 : S256x18x196x192.Slices ![0, 0, 0, 0] S256x18x196x32
  slices_S256x18x196x192_S256x18x196x32_0_0_0_32 : S256x18x196x192.Slices ![0, 0, 0, 32] S256x18x196x32
  slices_S256x18x196x192_S256x18x196x128_0_0_0_64 : S256x18x196x192.Slices ![0, 0, 0, 64] S256x18x196x128
  bcast_S_S196x196 : S_.BroadcastsInDim S196x196 (![] : Fin 0 → Fin S196x196.rank)
  bcast_S196x196_S196x196x1_0_1 : S196x196.BroadcastsInDim S196x196x1 (![0, 1] : Fin 2 → Fin S196x196x1.rank)
  bcast_S_S256x18x196x196 : S_.BroadcastsInDim S256x18x196x196 (![] : Fin 0 → Fin S256x18x196x196.rank)
  bcast_S18x196x196_S1x18x196x196_1_2_3 : S18x196x196.BroadcastsInDim S1x18x196x196 (![1, 2, 3] : Fin 3 → Fin S1x18x196x196.rank)
  bcast_S1x18x196x196_S256x18x196x196_0_1_2_3 : S1x18x196x196.BroadcastsInDim S256x18x196x196 (![0, 1, 2, 3] : Fin 4 → Fin S256x18x196x196.rank)
  reducesTo_S256x18x196x196_S256x18x196_d3 : S256x18x196x196.ReducesTo [3] S256x18x196
  bcast_S_S256x18x196 : S_.BroadcastsInDim S256x18x196 (![] : Fin 0 → Fin S256x18x196.rank)
  bcast_S256x18x196_S256x18x196x1_0_1_2 : S256x18x196.BroadcastsInDim S256x18x196x1 (![0, 1, 2] : Fin 3 → Fin S256x18x196x1.rank)
  bcast_S256x18x196x1_S256x18x196x196_0_1_2_3 : S256x18x196x1.BroadcastsInDim S256x18x196x196 (![0, 1, 2, 3] : Fin 4 → Fin S256x18x196x196.rank)
  transposes_S256x18x196x128_S256x196x18x128_0_2_1_3 : S256x18x196x128.Transposes [0, 2, 1, 3] S256x196x18x128
  shapeCasts_S256x196x18x128_S256x196x2304 : S256x196x18x128.ShapeCasts S256x196x2304
  dot_S256x196x576_S576x3456_S256x196x3456_2_0_01_1_n_n_wf : DotDims.WF S256x196x576 S576x3456 S256x196x3456 [2] [0] [0, 1] [1] [] []
  gather_S18x196_S196x196x1_S18x196x196_0_1_n_n_1_2_181_wf : GatherDims.WF S18x196 S196x196x1 S18x196x196 [0] [1] [] [1] [] 2 ![18, 1]
  dot_S256x18x196x32_S256x18x196x32_S256x18x196x196_3_3_2_2_01_01_wf : DotDims.WF S256x18x196x32 S256x18x196x32 S256x18x196x196 [3] [3] [2] [2] [0, 1] [0, 1]
  dot_S256x18x196x196_S256x18x196x128_S256x18x196x128_3_2_2_3_01_01_wf : DotDims.WF S256x18x196x196 S256x18x196x128 S256x18x196x128 [3] [2] [2] [3] [0, 1] [0, 1]
  dot_S256x196x2304_S2304x576_S256x196x576_2_0_01_1_n_n_wf : DotDims.WF S256x196x2304 S2304x576 S256x196x576 [2] [0] [0, 1] [1] [] []

variable [Facts₀]

def dot_S256x196x576_S576x3456_S256x196x3456_2_0_01_1_n_n : DotDims S256x196x576 S576x3456 S256x196x3456 where
  lhsContracting := [2]
  rhsContracting := [0]
  lhsNonContracting := [0, 1]
  rhsNonContracting := [1]
  lhsBatch := []
  rhsBatch := []
  wf := dot_S256x196x576_S576x3456_S256x196x3456_2_0_01_1_n_n_wf
def gather_S18x196_S196x196x1_S18x196x196_0_1_n_n_1_2_181 : GatherDims S18x196 S196x196x1 S18x196x196 where
  offsetDims := [0]
  collapsedSliceDims := [1]
  operandBatchingDims := []
  startIndicesBatchingDims := []
  startIndexMap := [1]
  indexVectorDim := 2
  sliceSizes := ![18, 1]
  wf := gather_S18x196_S196x196x1_S18x196x196_0_1_n_n_1_2_181_wf
def dot_S256x18x196x32_S256x18x196x32_S256x18x196x196_3_3_2_2_01_01 : DotDims S256x18x196x32 S256x18x196x32 S256x18x196x196 where
  lhsContracting := [3]
  rhsContracting := [3]
  lhsNonContracting := [2]
  rhsNonContracting := [2]
  lhsBatch := [0, 1]
  rhsBatch := [0, 1]
  wf := dot_S256x18x196x32_S256x18x196x32_S256x18x196x196_3_3_2_2_01_01_wf
def dot_S256x18x196x196_S256x18x196x128_S256x18x196x128_3_2_2_3_01_01 : DotDims S256x18x196x196 S256x18x196x128 S256x18x196x128 where
  lhsContracting := [3]
  rhsContracting := [2]
  lhsNonContracting := [2]
  rhsNonContracting := [3]
  lhsBatch := [0, 1]
  rhsBatch := [0, 1]
  wf := dot_S256x18x196x196_S256x18x196x128_S256x18x196x128_3_2_2_3_01_01_wf
def dot_S256x196x2304_S2304x576_S256x196x576_2_0_01_1_n_n : DotDims S256x196x2304 S2304x576 S256x196x576 where
  lhsContracting := [2]
  rhsContracting := [0]
  lhsNonContracting := [0, 1]
  rhsNonContracting := [1]
  lhsBatch := []
  rhsBatch := []
  wf := dot_S256x196x2304_S2304x576_S256x196x576_2_0_01_1_n_n_wf

class Facts : Prop extends Facts₀ where

variable [Facts]
-- ==== Proof.KForm.lean ====
/-
  The kernel body's one store, in a form that shows its mathematics.

  Per grid point the body holds a tile of 4 batch rows.  It layer-normalises the tile's 4·196 token rows, multiplies by
  the fused QKV weight and adds the bias (`qkvTile`, a [4,196,3456] array whose last axis is 18 groups of 192 columns:
  32 query, 32 key and 128 value columns per head), then for each of the 18 heads takes
  scores = (q·kᵀ)·c + bias_h, a row softmax exp(s − max s) / Σ exp(s − max s), and the product with v (`head`),
  lays the 18 head outputs side by side along the last axis, multiplies by the projection weight and adds its bias.
  The printed body spells the 18 heads out one after another; here one definition `head`, parametrised by the three
  column offsets of its group, stands for all of them, and `out0_8_eq` says the stored block IS that composition:
  both sides unfold to the same operations, so the equation holds by definitional unfolding.
-/
import proofs.«148307_j15985868275953_1_alg».proof.Proof.Gen.KernelIdeal.Frame

set_option maxRecDepth 65536

noncomputable section

namespace Cert.KernelIdeal.Hand

open Cert.KernelIdeal Cert.KernelIdeal.Gen Idealize.ShloMosaic Idealize.ShloMosaic.TcCoe Idealize.SL.Sem

variable {F : FTy → Type} [FloatOps F]

/-- The tile's rows after layer normalisation and the fused QKV projection: a [4,196,3456] array. -/
abbrev qkvTile (x0 : Vec F S4x196x576 .f32) (x1 x2 : Vec F S576 .f32) (x3 : Vec F S576x3456 .bf16) (x4 : Vec F S3456 .f32) :
    FVec F S4x196x3456 .f32 :=
  k0_pay2 (View.ld x0 r0_0) (View.ld x1 r0_1) (View.ld x2 r0_1) (View.ld x3 r0_2) (View.ld x4 r0_3)

/-- The attention logits of one head on the tile: (q·kᵀ)·c + bias, with q and k the 32-column slices of the QKV rows at
    offsets `oq` and `ok`, c the f32 word 0x3E3504F3, and the head's [1,196,196] bias slab repeated over the 4 batch rows. -/
def scores (oq ok : Nat) (hq : S4x196x3456.Slices ![0, 0, oq] S4x196x32) (hk : S4x196x3456.Slices ![0, 0, ok] S4x196x32)
    (v34 : FVec F S4x196x3456 .f32) (b : Vec F S1x196x196 .f32) : FVec F S4x196x196 .f32 :=
  addf
    (mulf
      (matmul dot_S4x196x32_S4x196x32_S4x196x196_2_2_1_1_0_0 none
        (truncf .bf16 (extractStridedSlice S4x196x32 ![0, 0, oq] v34 hq) bitsLt_bf16_f32)
        (truncf .bf16 (extractStridedSlice S4x196x32 ![0, 0, ok] v34 hk) bitsLt_bf16_f32)
        (constant S4x196x196 .f32 0x00000000#32))
      (broadcast S4x196x196 (Scalar.ofBits .f32 0x3E3504F3#32)))
    (broadcastTo S4x196x196
      (shapeCast S1x196x196 (shapeCast S196x196 b shapeCasts_S1x196x196_S196x196) shapeCasts_S196x196_S1x196x196)
      broadcasts_S1x196x196_S4x196x196)

/-- exp (s − rowmax s), the row maximum taken from −∞ over the last axis. -/
def expShift (s : FVec F S4x196x196 .f32) : FVec F S4x196x196 .f32 :=
  exp (subf s
    (broadcastTo S4x196x196
      (shapeCast S4x196x1
        (maximumf (broadcast S4x196 (Scalar.ofBits .f32 0xFF800000#32))
          (multiReduction .maximumf [2] S4x196 s 0xFF800000#32 reduces_S4x196x196_S4x196 (.inl rfl) rfl))
        shapeCasts_S4x196_S4x196x1)
      broadcasts_S4x196x1_S4x196x196))

/-- The row softmax of the logits: exp (s − max) divided by its row sum. -/
def probs (s : FVec F S4x196x196 .f32) : FVec F S4x196x196 .f32 :=
  divf (expShift s)
    (broadcastTo S4x196x196
      (shapeCast S4x196x1
        (multiReduction .add [2] S4x196 (expShift s) 0x00000000#32 reduces_S4x196x196_S4x196 (.inl rfl) rfl)
        shapeCasts_S4x196_S4x196x1)
      broadcasts_S4x196x1_S4x196x196)

/-- One attention head on the tile: softmax(scores)·v, v the 128-column slice of the QKV rows at offset `ov`. -/
def head (oq ok ov : Nat) (hq : S4x196x3456.Slices ![0, 0, oq] S4x196x32) (hk : S4x196x3456.Slices ![0, 0, ok] S4x196x32)
    (hv : S4x196x3456.Slices ![0, 0, ov] S4x196x128)
    (v34 : FVec F S4x196x3456 .f32) (b : Vec F S1x196x196 .f32) : FVec F S4x196x128 .bf16 :=
  truncf .bf16
    (matmul dot_S4x196x196_S4x196x128_S4x196x128_2_1_1_2_0_0 none
      (truncf .bf16 (probs (scores oq ok hq hk v34 b)) bitsLt_bf16_f32)
      (truncf .bf16 (extractStridedSlice S4x196x128 ![0, 0, ov] v34 hv) bitsLt_bf16_f32)
      (constant S4x196x128 .f32 0x00000000#32))
    bitsLt_bf16_f32

/-- The 18 head outputs of the tile side by side along the last axis: a [4,196,2304] array, head h in columns 128h … 128h+127,
    over the tile's QKV rows `v34` and the heads' bias slabs `bs h`. -/
def headsCat (v34 : FVec F S4x196x3456 .f32) (bs : Fin 18 → Vec F S1x196x196 .f32) : FVec F S4x196x2304 .bf16 :=
  concatenate S4x196x2304 2
    [⟨S4x196x128, head 0 32 64 slices_S4x196x3456_o0_0_0_S4x196x32 slices_S4x196x3456_o0_0_32_S4x196x32 slices_S4x196x3456_o0_0_64_S4x196x128 v34 (bs 0)⟩,
     ⟨S4x196x128, head 192 224 256 slices_S4x196x3456_o0_0_192_S4x196x32 slices_S4x196x3456_o0_0_224_S4x196x32 slices_S4x196x3456_o0_0_256_S4x196x128 v34 (bs 1)⟩,
     ⟨S4x196x128, head 384 416 448 slices_S4x196x3456_o0_0_384_S4x196x32 slices_S4x196x3456_o0_0_416_S4x196x32 slices_S4x196x3456_o0_0_448_S4x196x128 v34 (bs 2)⟩,
     ⟨S4x196x128, head 576 608 640 slices_S4x196x3456_o0_0_576_S4x196x32 slices_S4x196x3456_o0_0_608_S4x196x32 slices_S4x196x3456_o0_0_640_S4x196x128 v34 (bs 3)⟩,
     ⟨S4x196x128, head 768 800 832 slices_S4x196x3456_o0_0_768_S4x196x32 slices_S4x196x3456_o0_0_800_S4x196x32 slices_S4x196x3456_o0_0_832_S4x196x128 v34 (bs 4)⟩,
     ⟨S4x196x128, head 960 992 1024 slices_S4x196x3456_o0_0_960_S4x196x32 slices_S4x196x3456_o0_0_992_S4x196x32 slices_S4x196x3456_o0_0_1024_S4x196x128 v34 (bs 5)⟩,
     ⟨S4x196x128, head 1152 1184 1216 slices_S4x196x3456_o0_0_1152_S4x196x32 slices_S4x196x3456_o0_0_1184_S4x196x32 slices_S4x196x3456_o0_0_1216_S4x196x128 v34 (bs 6)⟩,
     ⟨S4x196x128, head 1344 1376 1408 slices_S4x196x3456_o0_0_1344_S4x196x32 slices_S4x196x3456_o0_0_1376_S4x196x32 slices_S4x196x3456_o0_0_1408_S4x196x128 v34 (bs 7)⟩,
     ⟨S4x196x128, head 1536 1568 1600 slices_S4x196x3456_o0_0_1536_S4x196x32 slices_S4x196x3456_o0_0_1568_S4x196x32 slices_S4x196x3456_o0_0_1600_S4x196x128 v34 (bs 8)⟩,
     ⟨S4x196x128, head 1728 1760 1792 slices_S4x196x3456_o0_0_1728_S4x196x32 slices_S4x196x3456_o0_0_1760_S4x196x32 slices_S4x196x3456_o0_0_1792_S4x196x128 v34 (bs 9)⟩,
     ⟨S4x196x128, head 1920 1952 1984 slices_S4x196x3456_o0_0_1920_S4x196x32 slices_S4x196x3456_o0_0_1952_S4x196x32 slices_S4x196x3456_o0_0_1984_S4x196x128 v34 (bs 10)⟩,
     ⟨S4x196x128, head 2112 2144 2176 slices_S4x196x3456_o0_0_2112_S4x196x32 slices_S4x196x3456_o0_0_2144_S4x196x32 slices_S4x196x3456_o0_0_2176_S4x196x128 v34 (bs 11)⟩,
     ⟨S4x196x128, head 2304 2336 2368 slices_S4x196x3456_o0_0_2304_S4x196x32 slices_S4x196x3456_o0_0_2336_S4x196x32 slices_S4x196x3456_o0_0_2368_S4x196x128 v34 (bs 12)⟩,
     ⟨S4x196x128, head 2496 2528 2560 slices_S4x196x3456_o0_0_2496_S4x196x32 slices_S4x196x3456_o0_0_2528_S4x196x32 slices_S4x196x3456_o0_0_2560_S4x196x128 v34 (bs 13)⟩,
     ⟨S4x196x128, head 2688 2720 2752 slices_S4x196x3456_o0_0_2688_S4x196x32 slices_S4x196x3456_o0_0_2720_S4x196x32 slices_S4x196x3456_o0_0_2752_S4x196x128 v34 (bs 14)⟩,
     ⟨S4x196x128, head 2880 2912 2944 slices_S4x196x3456_o0_0_2880_S4x196x32 slices_S4x196x3456_o0_0_2912_S4x196x32 slices_S4x196x3456_o0_0_2944_S4x196x128 v34 (bs 15)⟩,
     ⟨S4x196x128, head 3072 3104 3136 slices_S4x196x3456_o0_0_3072_S4x196x32 slices_S4x196x3456_o0_0_3104_S4x196x32 slices_S4x196x3456_o0_0_3136_S4x196x128 v34 (bs 16)⟩,
     ⟨S4x196x128, head 3264 3296 3328 slices_S4x196x3456_o0_0_3264_S4x196x32 slices_S4x196x3456_o0_0_3296_S4x196x32 slices_S4x196x3456_o0_0_3328_S4x196x128 v34 (bs 17)⟩]
    concatenates_S4x196x128_S4x196x128_S4x196x128_S4x196x128_S4x196x128_S4x196x128_S4x196x128_S4x196x128_S4x196x128_S4x196x128_S4x196x128_S4x196x128_S4x196x128_S4x196x128_S4x196x128_S4x196x128_S4x196x128_S4x196x128_S4x196x2304_d2

/-- The 18 bias slabs the body loads, one [1,196,196] rectangle of the [18,196,196] bias block per head. -/
abbrev slabs (x7 : Vec F S18x196x196 .f32) : Fin 18 → Vec F S1x196x196 .f32 :=
  ![View.ld x7 r0_4, View.ld x7 r0_5, View.ld x7 r0_6, View.ld x7 r0_7, View.ld x7 r0_8, View.ld x7 r0_9, View.ld x7 r0_10, View.ld x7 r0_11, View.ld x7 r0_12, View.ld x7 r0_13, View.ld x7 r0_14, View.ld x7 r0_15, View.ld x7 r0_16, View.ld x7 r0_17, View.ld x7 r0_18, View.ld x7 r0_19, View.ld x7 r0_20, View.ld x7 r0_21]

/-- Array row `4·T + b` of batch tile `T`. -/
abbrev brow (T : Fin 64) (b : Fin 4) : Fin 256 := ⟨4 * T.val + b.val, by omega⟩

/-- The block the body stores: the projection (k0_pay1: product with the [2304,576] weight plus its bias row) of the 18 heads
    laid side by side, over the tile's normalised QKV rows. -/
theorem out0_8_eq (x0 : Vec F S4x196x576 .f32) (x1 x2 : Vec F S576 .f32) (x3 : Vec F S576x3456 .bf16) (x4 : Vec F S3456 .f32)
    (x5 : Vec F S2304x576 .bf16) (x6 : Vec F S576 .f32) (x7 : Vec F S18x196x196 .f32) :
    out0_8 x0 x1 x2 x3 x4 x5 x6 x7
      = View.canon [⟨r0_0, k0_pay1 (shapeCast S784x2304 (headsCat (qkvTile x0 x1 x2 x3 x4) (slabs x7)) shapeCasts_S4x196x2304_S784x2304)
          (View.ld x5 r0_22) (View.ld x6 r0_1)⟩] := rfl

end Cert.KernelIdeal.Hand

end
-- ==== Proof.TileQKV.lean ====
/-
  The tile's normalised QKV rows are the reference's rows 4T … 4T+3.
-/
import proofs.«148307_j15985868275953_1_alg».proof.Proof.KForm
import proofs.«148307_j15985868275953_1_alg».proof.Proof.Gen.ReferenceIdeal.Read
import Idealize.ShloMosaic.Lib.ValueIdx
import Idealize.ShloMosaic.Lib.Pipeline.Value
import Idealize.ShloMosaic.PureOps.Ideal.Laws

set_option maxRecDepth 65536

noncomputable section

namespace Cert.KernelIdeal.Hand

open Cert.KernelIdeal Cert.KernelIdeal.Gen Idealize.ShloMosaic Idealize.ShloMosaic.TcCoe Idealize.SL.Sem Idealize.ShloMosaic.ValueIdx
open Cert.ReferenceIdeal.Read (val_main_v27 val_main_v39 val_main_v45 val_main_v56 val_main_v57 val_main_v59 val_main_v63)

variable (T : Fin 64)
variable (X : Vec Ideal S256x196x576 .f32) (g bt : Vec Ideal S576 .f32) (W : Vec Ideal S576x3456 .bf16) (bq : Vec Ideal S3456 .f32)
variable (A : Vec Ideal S18x196 .f32) (I : (⟨S196x196, .i32⟩ : BufTy).Contents (Elt Ideal))

/-- An index of a rank-3 array is the index of its three coordinates. -/
private theorem idx3_ext {n0 n1 n2 : Nat} (i : (⟨3, ![n0, n1, n2]⟩ : Shape).Idx) (a : Fin n0) (b : Fin n1) (c : Fin n2)
    (h0 : (i 0).val = a.val) (h1 : (i 1).val = b.val) (h2 : (i 2).val = c.val) : i = ix3 a b c := by
  funext d; apply Fin.ext
  match d with | ⟨0, _⟩ => exact h0 | ⟨1, _⟩ => exact h1 | ⟨2, _⟩ => exact h2

/-- An index of a rank-2 array is the index of its two coordinates. -/
private theorem idx2_ext {n0 n1 : Nat} (i : (⟨2, ![n0, n1]⟩ : Shape).Idx) (a : Fin n0) (b : Fin n1)
    (h0 : (i 0).val = a.val) (h1 : (i 1).val = b.val) : i = ix2 a b := by
  funext d; apply Fin.ext
  match d with | ⟨0, _⟩ => exact h0 | ⟨1, _⟩ => exact h1

/-- The lane reduction's source index at row (b, n) and lane k. -/
private theorem lane_lift (b : Fin 4) (n : Fin 196) (k : Fin (S4x196x576.size 2)) :
    reduces_S4x196x576_S4x196.lift (ix2 b n) k = ix3 b n (⟨k.val, k.isLt⟩ : Fin 576) := by
  funext c; apply Fin.ext; fin_cases c <;> rfl

/-- The tile's lane sum at row (b, n) is the sum of the row's 576 entries. -/
private theorem laneSum_apply (y : FVec Ideal S4x196x576 .f32) (b : Fin 4) (n : Fin 196) :
    multiReduction (F := Ideal) .add [2] S4x196 y 0x00000000#32 reduces_S4x196x576_S4x196 (.inl rfl) rfl (ix2 b n)
      = ∑ d : Fin 576, y (ix3 b n d) := by
  refine (Ideal.multiReduction_add_single y 0x00000000#32 reduces_S4x196x576_S4x196 (.inl rfl) rfl (ix2 b n)).trans ?_
  exact Finset.sum_congr rfl fun k _ => congrArg y (lane_lift b n k)

/-- The lane sum divided by a constant, as a [4,196,1] array, read at row (b, n). -/
private theorem laneMean_apply (y : FVec Ideal S4x196x576 .f32) (c : Ideal .f32) (b : Fin 4) (n : Fin 196) (z : Fin 1) :
    divf (shapeCast S4x196x1 (multiReduction (F := Ideal) .add [2] S4x196 y 0x00000000#32 reduces_S4x196x576_S4x196 (.inl rfl) rfl) shapeCasts_S4x196_S4x196x1)
        (broadcast S4x196x1 c) (ix3 b n z)
      = Ideal.div (∑ d : Fin 576, y (ix3 b n d)) c := by
  rw [divf_apply, broadcast_apply, shapeCast_apply _ shapeCasts_S4x196_S4x196x1 (ix3 b n z) (ix2 b n) (by
    rw [Shape.rowMajor_val_two, Shape.rowMajor_val_three]
    have hz : z.val = 0 := by omega
    show b.val * 196 + n.val = (b.val * 196 + n.val) * 1 + z.val
    omega), laneSum_apply]

/-- The reference's row sum at row (B, n). -/
private theorem ref_rowSum (B : Fin 256) (n : Fin 196) :
    Cert.ReferenceIdeal.Read.val_main_v0 (F := Ideal) X (ix2 B n) = ∑ d : Fin 576, X (ix3 B n d) := by
  rw [Cert.ReferenceIdeal.Read.val_main_v0_apply, Cert.ReferenceIdeal.Read.val_main_cst_apply]
  show Ideal.ofBits .f32 0x00000000#32 + _ = _
  rw [Ideal.ofBits_zero_f32, zero_add]
  exact Finset.sum_congr rfl fun k _ => congrArg X (idx3_ext _ _ _ _ rfl rfl rfl)

open Cert.ReferenceIdeal.Read (val_main_v0 val_main_v1 val_main_v2 val_main_v3 val_main_v4 val_main_v5 val_main_v6 val_main_v7 val_main_v8 val_main_v9 val_main_v10
  val_main_v11 val_main_v12 val_main_v13 val_main_v14 val_main_v15 val_main_v16 val_main_v17 val_main_v18 val_main_v19 val_main_v20 val_main_v21 val_main_v22 val_main_v23
  val_main_v24 val_main_v25 val_main_v26
  val_main_v1_apply val_main_v2_apply val_main_v3_apply val_main_v4_apply val_main_v5_apply val_main_v6_apply val_main_v7_apply val_main_v8_apply val_main_v9_apply
  val_main_v10_apply val_main_v11_apply val_main_v12_apply val_main_v13_apply val_main_v14_apply val_main_v15_apply val_main_v16_apply val_main_v17_apply
  val_main_v18_apply val_main_v19_apply val_main_v20_apply val_main_v21_apply val_main_v22_apply val_main_v23_apply val_main_v24_apply val_main_v25_apply
  val_main_v26_apply val_main_v27_apply val_main_cst_0_apply val_main_cst_1_apply val_main_cst_2_apply val_main_cst_3_apply
  idx_main_v1 idx_main_v4 idx_main_v7 idx_main_v8 idx_main_v11 idx_main_v16 idx_main_v18 idx_main_v19 idx_main_v21 idx_main_v22 idx_main_v25 idx_main_v26
  lidx_main_v24 ridx_main_v24)

/-! ## Layer normalisation of one row of 576 entries -/

/-- The row's mean: its sum divided by 576 (the f32 word 0x44100000). -/
private def rowMean (r : Fin 576 → Ideal .f32) : Ideal .f32 := Ideal.div (∑ d : Fin 576, r d) (Ideal.ofBits .f32 0x44100000#32)
/-- The row's entries less the mean. -/
private def rowCen (r : Fin 576 → Ideal .f32) (d : Fin 576) : Ideal .f32 := r d - rowMean r
/-- 1 / sqrt (variance + ε): the variance is the mean of the squared centred entries, ε the f32 word 0x3727C5AC. -/
private def rowRstd (r : Fin 576 → Ideal .f32) : Ideal .f32 :=
  Ideal.rsqrt (Ideal.div (∑ d : Fin 576, rowCen r d * rowCen r d) (Ideal.ofBits .f32 0x44100000#32) + Ideal.ofBits .f32 0x3727C5AC#32)
/-- The normalised row: centred, scaled by 1 / sqrt (variance + ε) and by the gain, plus the shift. -/
private def rowNorm (r : Fin 576 → Ideal .f32) (g bt : Vec Ideal S576 .f32) (d : Fin 576) : Ideal .f32 :=
  rowCen r d * rowRstd r * g (ix1 d) + bt (ix1 d)

/-! ## The kernel's stages -/

/-- The tile's row means, a [4,196,1] array. -/
private def kMean (xb : Vec Ideal S4x196x576 .f32) : FVec Ideal S4x196x1 .f32 :=
  divf (shapeCast S4x196x1 (multiReduction (F := Ideal) .add [2] S4x196 xb 0x00000000#32 reduces_S4x196x576_S4x196 (.inl rfl) rfl) shapeCasts_S4x196_S4x196x1)
    (broadcast S4x196x1 (Scalar.ofBits .f32 0x44100000#32))
/-- The tile's centred entries. -/
private def kCen (xb : Vec Ideal S4x196x576 .f32) : FVec Ideal S4x196x576 .f32 :=
  subf xb (broadcastTo S4x196x576 (kMean xb) broadcasts_S4x196x1_S4x196x576)
/-- The tile's 1 / sqrt (variance + ε), a [4,196,1] array. -/
private def kRstd (xb : Vec Ideal S4x196x576 .f32) : FVec Ideal S4x196x1 .f32 :=
  rsqrt (addf
    (divf (shapeCast S4x196x1 (multiReduction (F := Ideal) .add [2] S4x196 (mulf (kCen xb) (kCen xb)) 0x00000000#32 reduces_S4x196x576_S4x196 (.inl rfl) rfl) shapeCasts_S4x196_S4x196x1)
      (broadcast S4x196x1 (Scalar.ofBits .f32 0x44100000#32)))
    (broadcast S4x196x1 (Scalar.ofBits .f32 0x3727C5AC#32)))
/-- The tile's normalised entries. -/
private def kNorm (xb : Vec Ideal S4x196x576 .f32) (g bt : Vec Ideal S576 .f32) : FVec Ideal S4x196x576 .f32 :=
  addf
    (mulf (mulf (kCen xb) (broadcastTo S4x196x576 (kRstd xb) broadcasts_S4x196x1_S4x196x576))
      (broadcastTo S4x196x576 (shapeCast S1x1x576 g shapeCasts_S576_S1x1x576) broadcasts_S1x1x576_S4x196x576))
    (broadcastTo S4x196x576 (shapeCast S1x1x576 bt shapeCasts_S576_S1x1x576) broadcasts_S1x1x576_S4x196x576)

/-- A [4,196,1] array repeated along the lanes, read at (b, n, d), is its entry at (b, n, 0). -/
private theorem bcast_col_apply (v : FVec Ideal S4x196x1 .f32) (b : Fin 4) (n : Fin 196) (d : Fin 576) :
    broadcastTo S4x196x576 v broadcasts_S4x196x1_S4x196x576 (ix3 b n d) = v (ix3 b n (0 : Fin 1)) :=
  broadcastTo_apply v broadcasts_S4x196x1_S4x196x576 (ix3 b n d) (ix3 b n (0 : Fin 1)) (fun a => by
    match a with
    | ⟨0, _⟩ => show b.val = if (4 : Nat) = 1 then 0 else b.val; rw [if_neg (by decide)]
    | ⟨1, _⟩ => show n.val = if (196 : Nat) = 1 then 0 else n.val; rw [if_neg (by decide)]
    | ⟨2, _⟩ => show 0 = if (1 : Nat) = 1 then 0 else d.val; rw [if_pos rfl])

/-- A [576] vector repeated over the tile's rows, read at (b, n, d), is its entry d. -/
private theorem bcast_vec_apply (v : Vec Ideal S576 .f32) (b : Fin 4) (n : Fin 196) (d : Fin 576) :
    broadcastTo S4x196x576 (shapeCast S1x1x576 v shapeCasts_S576_S1x1x576) broadcasts_S1x1x576_S4x196x576 (ix3 b n d) = v (ix1 d) := by
  rw [broadcastTo_apply _ broadcasts_S1x1x576_S4x196x576 (ix3 b n d) (ix3 (0 : Fin 1) (0 : Fin 1) d) (fun a => by
    match a with
    | ⟨0, _⟩ => show 0 = if (1 : Nat) = 1 then 0 else b.val; rw [if_pos rfl]
    | ⟨1, _⟩ => show 0 = if (1 : Nat) = 1 then 0 else n.val; rw [if_pos rfl]
    | ⟨2, _⟩ => show d.val = if (576 : Nat) = 1 then 0 else d.val; rw [if_neg (by decide)])]
  exact shapeCast_apply v shapeCasts_S576_S1x1x576 _ (ix1 d) (by
    rw [Shape.rowMajor_val_one, Shape.rowMajor_val_three]; show d.val = (0 * 1 + 0) * 576 + d.val; omega)

private theorem kMean_apply (xb : Vec Ideal S4x196x576 .f32) (b : Fin 4) (n : Fin 196) (z : Fin 1) :
    kMean xb (ix3 b n z) = rowMean (fun d => xb (ix3 b n d)) :=
  laneMean_apply xb _ b n z

private theorem kCen_apply (xb : Vec Ideal S4x196x576 .f32) (b : Fin 4) (n : Fin 196) (d : Fin 576) :
    kCen xb (ix3 b n d) = rowCen (fun d => xb (ix3 b n d)) d := by
  unfold kCen rowCen
  rw [subf_apply, bcast_col_apply, kMean_apply]

private theorem kRstd_apply (xb : Vec Ideal S4x196x576 .f32) (b : Fin 4) (n : Fin 196) (z : Fin 1) :
    kRstd xb (ix3 b n z) = rowRstd (fun d => xb (ix3 b n d)) := by
  unfold kRstd rowRstd
  show Ideal.rsqrt (_ + _) = _
  rw [laneMean_apply]
  refine congrArg (fun s => Ideal.rsqrt (Ideal.div s _ + _)) (Finset.sum_congr rfl fun d _ => ?_)
  rw [mulf_apply, kCen_apply]

private theorem kNorm_apply (xb : Vec Ideal S4x196x576 .f32) (b : Fin 4) (n : Fin 196) (d : Fin 576) :
    kNorm xb g bt (ix3 b n d) = rowNorm (fun d => xb (ix3 b n d)) g bt d := by
  unfold kNorm rowNorm
  rw [addf_apply, mulf_apply, mulf_apply, kCen_apply, bcast_col_apply, kRstd_apply, bcast_vec_apply, bcast_vec_apply]

/-! ## The reference's stages -/

private theorem ref_mean (B : Fin 256) (n : Fin 196) (z : Fin 1) :
    val_main_v3 (F := Ideal) X (ix3 B n z) = rowMean (fun d => X (ix3 B n d)) := by
  rw [val_main_v3_apply, val_main_v1_apply, val_main_v2_apply, val_main_cst_0_apply,
    show idx_main_v1 (ix3 B n z) = ix2 B n from idx2_ext _ _ _ rfl rfl, ref_rowSum]
  rfl

private theorem ref_cen (B : Fin 256) (n : Fin 196) (d : Fin 576) :
    val_main_v5 (F := Ideal) X (ix3 B n d) = rowCen (fun d => X (ix3 B n d)) d := by
  rw [val_main_v5_apply, val_main_v4_apply,
    show idx_main_v4 (ix3 B n d) = ix3 B n (0 : Fin 1) from idx3_ext _ _ _ _ rfl rfl rfl, ref_mean]
  rfl

private theorem ref_cen' (B : Fin 256) (n : Fin 196) (d : Fin 576) :
    val_main_v12 (F := Ideal) X (ix3 B n d) = rowCen (fun d => X (ix3 B n d)) d := by
  rw [val_main_v12_apply, val_main_v11_apply,
    show idx_main_v11 (ix3 B n d) = ix3 B n (0 : Fin 1) from idx3_ext _ _ _ _ rfl rfl rfl, ref_mean]
  rfl

private theorem ref_sqSum (B : Fin 256) (n : Fin 196) :
    val_main_v7 (F := Ideal) X (ix2 B n) = ∑ d : Fin 576, rowCen (fun d => X (ix3 B n d)) d * rowCen (fun d => X (ix3 B n d)) d := by
  rw [Cert.ReferenceIdeal.Read.val_main_v7_apply, val_main_cst_1_apply]
  show Ideal.ofBits .f32 0x00000000#32 + _ = _
  rw [Ideal.ofBits_zero_f32, zero_add]
  refine Finset.sum_congr rfl fun k _ => ?_
  rw [show idx_main_v7 (ix2 B n) k = ix3 B n k from idx3_ext _ _ _ _ rfl rfl rfl, val_main_v6_apply, ref_cen]
  rfl

private theorem ref_rstd (B : Fin 256) (n : Fin 196) (z : Fin 1) :
    val_main_v15 (F := Ideal) X (ix3 B n z) = rowRstd (fun d => X (ix3 B n d)) := by
  rw [val_main_v15_apply, val_main_v14_apply, val_main_v10_apply, val_main_v8_apply, val_main_v9_apply, val_main_cst_2_apply,
    val_main_v13_apply, val_main_cst_3_apply,
    show idx_main_v8 (ix3 B n z) = ix2 B n from idx2_ext _ _ _ rfl rfl, ref_sqSum]
  rfl

private theorem ref_norm (B : Fin 256) (n : Fin 196) (d : Fin 576) :
    val_main_v23 (F := Ideal) X g bt (ix3 B n d) = rowNorm (fun d => X (ix3 B n d)) g bt d := by
  rw [val_main_v23_apply, val_main_v20_apply, val_main_v17_apply, ref_cen', val_main_v16_apply,
    show idx_main_v16 (ix3 B n d) = ix3 B n (0 : Fin 1) from idx3_ext _ _ _ _ rfl rfl rfl, ref_rstd,
    val_main_v19_apply, val_main_v18_apply, val_main_v22_apply, val_main_v21_apply,
    show idx_main_v18 (idx_main_v19 (ix3 B n d)) = ix1 d from funext fun a => by match a with | ⟨0, _⟩ => rfl,
    show idx_main_v21 (idx_main_v22 (ix3 B n d)) = ix1 d from funext fun a => by match a with | ⟨0, _⟩ => rfl]
  rfl

/-! ## The fused QKV product -/

/-- The payload is the product of the normalised tile's 784 rows with the weight, plus the bias row, as a [4,196,3456] array. -/
private theorem k0_pay2_eq (xb : Vec Ideal S4x196x576 .f32) :
    k0_pay2 (F := Ideal) xb g bt W bq
      = shapeCast S4x196x3456
          (addf
            (matmul dot_S784x576_S576x3456_S784x3456_1_0_0_1_n_n none
              (truncf .bf16 (shapeCast S784x576 (kNorm xb g bt) shapeCasts_S4x196x576_S784x576) bitsLt_bf16_f32)
              (shapeCast S576x3456 W shapeCasts_S576x3456_S576x3456 : FVec Ideal S576x3456 .bf16)
              (constant S784x3456 .f32 0x00000000#32))
            (broadcastTo S784x3456 (shapeCast S1x3456 bq shapeCasts_S3456_S1x3456) broadcasts_S1x3456_S784x3456))
          shapeCasts_S784x3456_S4x196x3456 := rfl

private theorem qkv_lhs_0 (i : S784x3456.Idx) (q : dot_S784x576_S576x3456_S784x3456_1_0_0_1_n_n.contr.Idx) :
    (dot_S784x576_S576x3456_S784x3456_1_0_0_1_n_n.lhsIdx i q 0).val = (i 0).val := by
  unfold DotDims.lhsIdx
  rw [dif_neg (show ¬(0 : Fin S784x576.rank) ∈ dot_S784x576_S576x3456_S784x3456_1_0_0_1_n_n.lhsBatch by decide), dif_pos (show (0 : Fin S784x576.rank) ∈ dot_S784x576_S576x3456_S784x3456_1_0_0_1_n_n.lhsNonContracting by decide)]
  rfl
private theorem qkv_lhs_1 (i : S784x3456.Idx) (q : dot_S784x576_S576x3456_S784x3456_1_0_0_1_n_n.contr.Idx) :
    (dot_S784x576_S576x3456_S784x3456_1_0_0_1_n_n.lhsIdx i q 1).val = (q ⟨0, by decide⟩).val :=
  dot_S784x576_S576x3456_S784x3456_1_0_0_1_n_n.lhsIdx_val_of_single rfl i q
private theorem qkv_rhs_0 (i : S784x3456.Idx) (q : dot_S784x576_S576x3456_S784x3456_1_0_0_1_n_n.contr.Idx) :
    (dot_S784x576_S576x3456_S784x3456_1_0_0_1_n_n.rhsIdx i q 0).val = (q ⟨0, by decide⟩).val :=
  dot_S784x576_S576x3456_S784x3456_1_0_0_1_n_n.rhsIdx_val_of_single rfl i q
private theorem qkv_rhs_1 (i : S784x3456.Idx) (q : dot_S784x576_S576x3456_S784x3456_1_0_0_1_n_n.contr.Idx) :
    (dot_S784x576_S576x3456_S784x3456_1_0_0_1_n_n.rhsIdx i q 1).val = (i 1).val := by
  unfold DotDims.rhsIdx
  rw [dif_neg (show ¬(1 : Fin S576x3456.rank) ∈ dot_S784x576_S576x3456_S784x3456_1_0_0_1_n_n.rhsBatch by decide), dif_pos (show (1 : Fin S576x3456.rank) ∈ dot_S784x576_S576x3456_S784x3456_1_0_0_1_n_n.rhsNonContracting by decide)]
  rfl

/-- The product into the zero array, read at (row, j): the sum over the 576 shared coordinates. -/
private theorem qkv_matmul_apply (l : FVec Ideal S784x576 .bf16) (r : FVec Ideal S576x3456 .bf16) (row : Fin 784) (j : Fin 3456) :
    matmul dot_S784x576_S576x3456_S784x3456_1_0_0_1_n_n none l r (constant S784x3456 .f32 0x00000000#32) (ix2 row j)
      = ∑ k : Fin 576, (l (ix2 row k) : EReal) * (r (ix2 k j) : EReal) := by
  simp only [matmul]
  rw [Ideal.matmul_constant_zero_apply, ← Equiv.sum_comp (ValueIdx.contrEquiv1 dot_S784x576_S576x3456_S784x3456_1_0_0_1_n_n 576 rfl rfl).symm]
  refine Finset.sum_congr rfl fun k _ => ?_
  have hk := ValueIdx.contrEquiv1_symm_val dot_S784x576_S576x3456_S784x3456_1_0_0_1_n_n 576 rfl rfl k
  have el : dot_S784x576_S576x3456_S784x3456_1_0_0_1_n_n.lhsIdx (ix2 row j) ((ValueIdx.contrEquiv1 dot_S784x576_S576x3456_S784x3456_1_0_0_1_n_n 576 rfl rfl).symm k) = ix2 row k := funext fun a => Fin.ext (by
    match a with
    | ⟨0, _⟩ => exact qkv_lhs_0 _ _
    | ⟨1, _⟩ => exact (qkv_lhs_1 _ _).trans hk)
  have er : dot_S784x576_S576x3456_S784x3456_1_0_0_1_n_n.rhsIdx (ix2 row j) ((ValueIdx.contrEquiv1 dot_S784x576_S576x3456_S784x3456_1_0_0_1_n_n 576 rfl rfl).symm k) = ix2 k j := funext fun a => Fin.ext (by
    match a with
    | ⟨0, _⟩ => exact (qkv_rhs_0 _ _).trans hk
    | ⟨1, _⟩ => exact qkv_rhs_1 _ _)
  rw [el, er]

/-- The kernel's QKV entry at (b, n, j): the normalised row (b, n) against column j of the weight, plus the bias entry j. -/
private theorem qkv_kernel (xb : Vec Ideal S4x196x576 .f32) (b : Fin 4) (n : Fin 196) (j : Fin 3456) :
    k0_pay2 (F := Ideal) xb g bt W bq (ix3 b n j)
      = (∑ k : Fin 576, (kNorm xb g bt (ix3 b n k) : EReal) * (W (ix2 k j) : EReal)) + bq (ix1 j) := by
  rw [k0_pay2_eq]
  have hr : 196 * b.val + n.val < 784 := by omega
  rw [shapeCast_apply _ shapeCasts_S784x3456_S4x196x3456 (ix3 b n j) (ix2 (⟨196 * b.val + n.val, hr⟩ : Fin 784) j) (by
    rw [Shape.rowMajor_val_two, Shape.rowMajor_val_three]
    show (196 * b.val + n.val) * 3456 + j.val = (b.val * 196 + n.val) * 3456 + j.val
    omega)]
  rw [addf_apply, qkv_matmul_apply]
  congr 1
  · refine Finset.sum_congr rfl fun k _ => ?_
    rw [truncf_apply, shapeCast_apply _ shapeCasts_S4x196x576_S784x576 (ix2 (⟨196 * b.val + n.val, hr⟩ : Fin 784) k) (ix3 b n k) (by
      rw [Shape.rowMajor_val_two, Shape.rowMajor_val_three]
      show (b.val * 196 + n.val) * 576 + k.val = (196 * b.val + n.val) * 576 + k.val
      omega),
      shapeCast_apply W shapeCasts_S576x3456_S576x3456 (ix2 k j) (ix2 k j) rfl]
  · rw [broadcastTo_apply _ broadcasts_S1x3456_S784x3456 (ix2 (⟨196 * b.val + n.val, hr⟩ : Fin 784) j) (ix2 (0 : Fin 1) j) (fun a => by
      match a with
      | ⟨0, _⟩ => show 0 = if (1 : Nat) = 1 then 0 else 196 * b.val + n.val; rw [if_pos rfl]
      | ⟨1, _⟩ => show j.val = if (3456 : Nat) = 1 then 0 else j.val; rw [if_neg (by decide)])]
    exact shapeCast_apply bq shapeCasts_S3456_S1x3456 _ (ix1 j) (by
      rw [Shape.rowMajor_val_one, Shape.rowMajor_val_two]; show j.val = 0 * 3456 + j.val; omega)

/-- The reference's QKV entry at (B, n, j): the normalised row (B, n) against column j of the weight, plus the bias entry j. -/
private theorem qkv_ref (B : Fin 256) (n : Fin 196) (j : Fin 3456) :
    val_main_v27 (F := Ideal) X g bt W bq (ix3 B n j)
      = (∑ k : Fin 576, (val_main_v23 (F := Ideal) X g bt (ix3 B n k) : EReal) * (W (ix2 k j) : EReal)) + bq (ix1 j) := by
  rw [val_main_v27_apply, Cert.ReferenceIdeal.Read.val_main_v24_apply, val_main_v26_apply, val_main_v25_apply]
  show (∑ k : Fin 576, _) + _ = _
  congr 1
  · refine Finset.sum_congr rfl fun k _ => ?_
    rw [show lidx_main_v24 (ix3 B n j) k = ix3 B n k from idx3_ext _ _ _ _ rfl rfl rfl,
      show ridx_main_v24 (ix3 B n j) k = ix2 k j from idx2_ext _ _ _ rfl rfl]
  · exact congrArg bq (funext fun a => by match a with | ⟨0, _⟩ => rfl)

/-- Layer normalisation, the fused QKV product and its bias on a tile whose rows are rows 4T … 4T+3 of the whole
    input give rows 4T … 4T+3 of the reference's QKV array. -/
theorem qkv_apply (xb : Vec Ideal S4x196x576 .f32)
    (hx : ∀ (b : Fin 4) (n : Fin 196) (d : Fin 576), xb (ix3 b n d) = X (ix3 (brow T b) n d))
    (b : Fin 4) (n : Fin 196) (j : Fin 3456) :
    k0_pay2 (F := Ideal) xb g bt W bq (ix3 b n j) = val_main_v27 (F := Ideal) X g bt W bq (ix3 (brow T b) n j) := by
  rw [qkv_kernel, qkv_ref]
  congr 1
  refine Finset.sum_congr rfl fun k _ => ?_
  rw [kNorm_apply, ref_norm, show (fun d => xb (ix3 b n d)) = fun d => X (ix3 (brow T b) n d) from funext fun d => hx b n d]

end Cert.KernelIdeal.Hand

end
-- ==== Proof.TileSoftmax.lean ====
/-
  The row softmax of a tile's logits is the reference's softmax on rows 4T … 4T+3 of head h.
-/
import proofs.«148307_j15985868275953_1_alg».proof.Proof.KForm
import proofs.«148307_j15985868275953_1_alg».proof.Proof.Gen.ReferenceIdeal.Read
import Idealize.ShloMosaic.Lib.ValueIdx
import Idealize.ShloMosaic.Lib.Pipeline.Value
import Idealize.ShloMosaic.PureOps.Ideal.Laws

set_option maxRecDepth 65536

noncomputable section

namespace Cert.KernelIdeal.Hand

open Cert.KernelIdeal Cert.KernelIdeal.Gen Idealize.ShloMosaic Idealize.ShloMosaic.TcCoe Idealize.SL.Sem Idealize.ShloMosaic.ValueIdx
open Cert.ReferenceIdeal.Read (val_main_v27 val_main_v39 val_main_v45 val_main_v56 val_main_v57 val_main_v59 val_main_v63)

variable (T : Fin 64)
variable (X : Vec Ideal S256x196x576 .f32) (g bt : Vec Ideal S576 .f32) (W : Vec Ideal S576x3456 .bf16) (bq : Vec Ideal S3456 .f32)
variable (A : Vec Ideal S18x196 .f32) (I : (⟨S196x196, .i32⟩ : BufTy).Contents (Elt Ideal))

/-- A per-row array of the tile, cast to a unit last axis and repeated along it, reads at (b, n, m) the row's entry (b, n). -/
theorem rowBcast_apply {α : Type} (v : S4x196.Idx → α) (b : Fin 4) (n m : Fin 196) :
    broadcastTo S4x196x196 (shapeCast S4x196x1 v shapeCasts_S4x196_S4x196x1) broadcasts_S4x196x1_S4x196x196 (ix3 b n m)
      = v (ix2 b n) := by
  refine (broadcastTo_apply _ broadcasts_S4x196x1_S4x196x196 (ix3 b n m) (ix3 b n (0 : Fin 1)) (fun a => ?_)).trans ?_
  · match a with
    | ⟨0, _⟩ => show b.val = if (4 : Nat) = 1 then 0 else b.val; rw [if_neg (by decide)]
    | ⟨1, _⟩ => show n.val = if (196 : Nat) = 1 then 0 else n.val; rw [if_neg (by decide)]
    | ⟨2, _⟩ => show 0 = if (1 : Nat) = 1 then 0 else m.val; rw [if_pos rfl]
  · refine shapeCast_apply v shapeCasts_S4x196_S4x196x1 (ix3 b n (0 : Fin 1)) (ix2 b n) ?_
    rw [Shape.rowMajor_val_two, Shape.rowMajor_val_three]
    show b.val * 196 + n.val = (b.val * 196 + n.val) * 1 + 0
    omega

/-- The tile's row maximum at (b, n): the fold of max, from the value of the word 0xFF800000, over the row's 196 logits. -/
theorem rowmaxK (s : FVec Ideal S4x196x196 .f32) (b : Fin 4) (n : Fin 196) :
    multiReduction (F := Ideal) .maximumf [2] S4x196 s 0xFF800000#32 reduces_S4x196x196_S4x196 (.inl rfl) rfl (ix2 b n)
      = (Finset.univ : Finset (Fin 196)).fold max (Ideal.ofBits .f32 0xFF800000#32) (fun k => s (ix3 b n k)) := by
  refine (Ideal.multiReduction_maximumf_single s _ reduces_S4x196x196_S4x196 (.inl rfl) rfl (ix2 b n)).trans ?_
  refine congrArg (fun f => Finset.fold max (Ideal.ofBits .f32 0xFF800000#32) f (Finset.univ : Finset (Fin 196))) ?_
  funext k
  exact congrArg s (funext fun a => Fin.ext (by match a with | ⟨0, _⟩ => rfl | ⟨1, _⟩ => rfl | ⟨2, _⟩ => rfl))

/-- The reference's row maximum at (r, h, n): the same fold over the 196 logits of row n of head h of batch row r. -/
theorem rowmaxR (r : Fin 256) (h : Fin 18) (n : Fin 196) :
    Cert.ReferenceIdeal.Read.val_main_v46 (F := Ideal) X g bt W bq A I (ix3 r h n)
      = (Finset.univ : Finset (Fin 196)).fold max (Ideal.ofBits .f32 0xFF800000#32)
          (fun k => val_main_v45 (F := Ideal) X g bt W bq A I (ix4 r h n k)) := by
  have hr : Cert.ReferenceIdeal.S256x18x196x196.Reduces [3] Cert.ReferenceIdeal.S256x18x196 := by decide
  have e := Host.reduce_eq_fold_single (s := Cert.ReferenceIdeal.S256x18x196x196) (t := Cert.ReferenceIdeal.S256x18x196)
    (u := Cert.ReferenceIdeal.S_) (α := Ideal .f32) (FloatOps.maximumf (F := Ideal) (φ := .f32))
    (val_main_v45 (F := Ideal) X g bt W bq A I) (Cert.ReferenceIdeal.Read.val_main_cst_6 (F := Ideal))
    Cert.ReferenceIdeal.Facts₀.reducesTo_S256x18x196x196_S256x18x196_d3 hr Cert.ReferenceIdeal.Facts₀.h_S_ (ix3 r h n)
  refine e.trans ?_
  refine congrArg (fun f => Finset.fold max (Ideal.ofBits .f32 0xFF800000#32) f (Finset.univ : Finset (Fin 196))) ?_
  funext k
  exact congrArg (val_main_v45 (F := Ideal) X g bt W bq A I)
    (funext fun a => Fin.ext (by match a with | ⟨0, _⟩ => rfl | ⟨1, _⟩ => rfl | ⟨2, _⟩ => rfl | ⟨3, _⟩ => rfl))

/-- The reference's shift at (r, h, n, m): the larger of the word's value and the row maximum at (r, h, n). -/
theorem shiftR (r : Fin 256) (h : Fin 18) (n m : Fin 196) :
    Cert.ReferenceIdeal.Read.val_main_v50 (F := Ideal) X g bt W bq A I (ix4 r h n m)
      = max (Ideal.ofBits .f32 0xFF800000#32) (Cert.ReferenceIdeal.Read.val_main_v46 (F := Ideal) X g bt W bq A I (ix3 r h n)) := by
  rw [Cert.ReferenceIdeal.Read.val_main_v50_apply, Cert.ReferenceIdeal.Read.val_main_v49_apply,
    Cert.ReferenceIdeal.Read.val_main_v48_apply, Cert.ReferenceIdeal.Read.val_main_v47_apply]
  have hi : Cert.ReferenceIdeal.Read.idx_main_v49 (Cert.ReferenceIdeal.Read.idx_main_v50 (ix4 r h n m)) = ix3 r h n :=
    funext fun a => Fin.ext (by match a with | ⟨0, _⟩ => rfl | ⟨1, _⟩ => rfl | ⟨2, _⟩ => rfl)
  rw [hi]
  rfl

/-- exp (s − rowmax s) on the tile is the reference's exponential on rows 4T … 4T+3 of head h. -/
theorem expShift_apply (h : Fin 18) (s : FVec Ideal S4x196x196 .f32)
    (hs : ∀ (b : Fin 4) (n m : Fin 196), s (ix3 b n m) = val_main_v45 (F := Ideal) X g bt W bq A I (ix4 (brow T b) h n m))
    (b : Fin 4) (n m : Fin 196) :
    expShift (F := Ideal) s (ix3 b n m)
      = Cert.ReferenceIdeal.Read.val_main_v52 (F := Ideal) X g bt W bq A I (ix4 (brow T b) h n m) := by
  rw [Cert.ReferenceIdeal.Read.val_main_v52_apply, Cert.ReferenceIdeal.Read.val_main_v51_apply, shiftR, rowmaxR]
  unfold expShift
  show Ideal.exp (s (ix3 b n m) - broadcastTo S4x196x196 (shapeCast S4x196x1 _ shapeCasts_S4x196_S4x196x1)
      broadcasts_S4x196x1_S4x196x196 (ix3 b n m)) = Ideal.exp (_ - _)
  rw [rowBcast_apply, maximumf_apply, broadcast_apply, rowmaxK, hs b n m]
  have hf : (fun k => s (ix3 b n k)) = fun k => val_main_v45 (F := Ideal) X g bt W bq A I (ix4 (brow T b) h n k) :=
    funext fun k => hs b n k
  rw [hf]
  rfl

/-- The tile's row sum of exp (s − rowmax s) at (b, n) is the reference's row sum at (4T+b, h, n). -/
theorem rowsum_apply (h : Fin 18) (s : FVec Ideal S4x196x196 .f32)
    (hs : ∀ (b : Fin 4) (n m : Fin 196), s (ix3 b n m) = val_main_v45 (F := Ideal) X g bt W bq A I (ix4 (brow T b) h n m))
    (b : Fin 4) (n : Fin 196) :
    multiReduction (F := Ideal) .add [2] S4x196 (expShift (F := Ideal) s) 0x00000000#32 reduces_S4x196x196_S4x196 (.inl rfl) rfl (ix2 b n)
      = Cert.ReferenceIdeal.Read.val_main_v53 (F := Ideal) X g bt W bq A I (ix3 (brow T b) h n) := by
  rw [Cert.ReferenceIdeal.Read.val_main_v53_apply, Cert.ReferenceIdeal.Read.val_main_cst_8_apply]
  refine (Ideal.multiReduction_add_single (expShift (F := Ideal) s) _ reduces_S4x196x196_S4x196 (.inl rfl) rfl (ix2 b n)).trans ?_
  show _ = Ideal.ofBits .f32 0x00000000#32 + _
  rw [Ideal.ofBits_zero_f32, zero_add]
  refine Finset.sum_congr rfl fun k _ => ?_
  have hl : reduces_S4x196x196_S4x196.lift (ix2 b n) k = ix3 b n (⟨k.val, k.isLt⟩ : Fin 196) :=
    funext fun a => Fin.ext (by match a with | ⟨0, _⟩ => rfl | ⟨1, _⟩ => rfl | ⟨2, _⟩ => rfl)
  have hr : Cert.ReferenceIdeal.Read.idx_main_v53 (ix3 (brow T b) h n) k = ix4 (brow T b) h n (⟨k.val, k.isLt⟩ : Fin 196) :=
    funext fun a => Fin.ext (by match a with | ⟨0, _⟩ => rfl | ⟨1, _⟩ => rfl | ⟨2, _⟩ => rfl | ⟨3, _⟩ => rfl)
  rw [hl, hr]
  exact expShift_apply T X g bt W bq A I h s hs b n _

/-- If the tile's logits are the reference's logits of head `h` on rows 4T … 4T+3, so are the softmax weights. -/
theorem probs_apply (h : Fin 18) (s : FVec Ideal S4x196x196 .f32)
    (hs : ∀ (b : Fin 4) (n m : Fin 196), s (ix3 b n m) = val_main_v45 (F := Ideal) X g bt W bq A I (ix4 (brow T b) h n m))
    (b : Fin 4) (n m : Fin 196) :
    probs (F := Ideal) s (ix3 b n m) = val_main_v56 (F := Ideal) X g bt W bq A I (ix4 (brow T b) h n m) := by
  rw [Cert.ReferenceIdeal.Read.val_main_v56_apply, Cert.ReferenceIdeal.Read.val_main_v55_apply,
    Cert.ReferenceIdeal.Read.val_main_v54_apply]
  have hi : Cert.ReferenceIdeal.Read.idx_main_v54 (Cert.ReferenceIdeal.Read.idx_main_v55 (ix4 (brow T b) h n m)) = ix3 (brow T b) h n :=
    funext fun a => Fin.ext (by match a with | ⟨0, _⟩ => rfl | ⟨1, _⟩ => rfl | ⟨2, _⟩ => rfl)
  rw [hi, ← rowsum_apply T X g bt W bq A I h s hs b n, ← expShift_apply T X g bt W bq A I h s hs b n m]
  unfold probs
  rw [divf_apply, rowBcast_apply]
  rfl

end Cert.KernelIdeal.Hand

end
-- ==== Proof.TileHead.lean ====
/-
  One attention head on a tile is the reference's head h on rows 4T … 4T+3.
-/
import proofs.«148307_j15985868275953_1_alg».proof.Proof.KForm
import proofs.«148307_j15985868275953_1_alg».proof.Proof.Gen.ReferenceIdeal.Read
import proofs.«148307_j15985868275953_1_alg».proof.Proof.TileSoftmax
import Idealize.ShloMosaic.Lib.ValueIdx
import Idealize.ShloMosaic.Lib.Pipeline.Value
import Idealize.ShloMosaic.PureOps.Ideal.Laws

set_option maxRecDepth 65536

noncomputable section

namespace Cert.KernelIdeal.Hand

open Cert.KernelIdeal Cert.KernelIdeal.Gen Idealize.ShloMosaic Idealize.ShloMosaic.TcCoe Idealize.SL.Sem Idealize.ShloMosaic.ValueIdx
open Cert.ReferenceIdeal.Read (val_main_v27 val_main_v39 val_main_v45 val_main_v56 val_main_v57 val_main_v59 val_main_v63)

variable (T : Fin 64)
variable (X : Vec Ideal S256x196x576 .f32) (g bt : Vec Ideal S576 .f32) (W : Vec Ideal S576x3456 .bf16) (bq : Vec Ideal S3456 .f32)
variable (A : Vec Ideal S18x196 .f32) (I : (⟨S196x196, .i32⟩ : BufTy).Contents (Elt Ideal))

/-! ## The two block products of a head, read at an index -/

/- Operand indices of the q·kᵀ product: batch axis 0, rows of q on axis 1, rows of k on axis 1, the 32 columns contracted. -/
theorem qk_lhs_0 (j : S4x196x196.Idx) (q : dot_S4x196x32_S4x196x32_S4x196x196_2_2_1_1_0_0.contr.Idx) :
    (dot_S4x196x32_S4x196x32_S4x196x196_2_2_1_1_0_0.lhsIdx j q 0).val = (j 0).val := by
  unfold DotDims.lhsIdx
  rw [dif_pos (show (0 : Fin S4x196x32.rank) ∈ dot_S4x196x32_S4x196x32_S4x196x196_2_2_1_1_0_0.lhsBatch by decide)]
  rfl
theorem qk_lhs_1 (j : S4x196x196.Idx) (q : dot_S4x196x32_S4x196x32_S4x196x196_2_2_1_1_0_0.contr.Idx) :
    (dot_S4x196x32_S4x196x32_S4x196x196_2_2_1_1_0_0.lhsIdx j q 1).val = (j 1).val := by
  unfold DotDims.lhsIdx
  rw [dif_neg (show ¬(1 : Fin S4x196x32.rank) ∈ dot_S4x196x32_S4x196x32_S4x196x196_2_2_1_1_0_0.lhsBatch by decide), dif_pos (show (1 : Fin S4x196x32.rank) ∈ dot_S4x196x32_S4x196x32_S4x196x196_2_2_1_1_0_0.lhsNonContracting by decide)]
  rfl
theorem qk_lhs_2 (j : S4x196x196.Idx) (q : dot_S4x196x32_S4x196x32_S4x196x196_2_2_1_1_0_0.contr.Idx) :
    (dot_S4x196x32_S4x196x32_S4x196x196_2_2_1_1_0_0.lhsIdx j q 2).val = (q ⟨0, by decide⟩).val :=
  dot_S4x196x32_S4x196x32_S4x196x196_2_2_1_1_0_0.lhsIdx_val_of_single rfl j q
theorem qk_rhs_0 (j : S4x196x196.Idx) (q : dot_S4x196x32_S4x196x32_S4x196x196_2_2_1_1_0_0.contr.Idx) :
    (dot_S4x196x32_S4x196x32_S4x196x196_2_2_1_1_0_0.rhsIdx j q 0).val = (j 0).val := by
  unfold DotDims.rhsIdx
  rw [dif_pos (show (0 : Fin S4x196x32.rank) ∈ dot_S4x196x32_S4x196x32_S4x196x196_2_2_1_1_0_0.rhsBatch by decide)]
  rfl
theorem qk_rhs_1 (j : S4x196x196.Idx) (q : dot_S4x196x32_S4x196x32_S4x196x196_2_2_1_1_0_0.contr.Idx) :
    (dot_S4x196x32_S4x196x32_S4x196x196_2_2_1_1_0_0.rhsIdx j q 1).val = (j 2).val := by
  unfold DotDims.rhsIdx
  rw [dif_neg (show ¬(1 : Fin S4x196x32.rank) ∈ dot_S4x196x32_S4x196x32_S4x196x196_2_2_1_1_0_0.rhsBatch by decide), dif_pos (show (1 : Fin S4x196x32.rank) ∈ dot_S4x196x32_S4x196x32_S4x196x196_2_2_1_1_0_0.rhsNonContracting by decide)]
  rfl
theorem qk_rhs_2 (j : S4x196x196.Idx) (q : dot_S4x196x32_S4x196x32_S4x196x196_2_2_1_1_0_0.contr.Idx) :
    (dot_S4x196x32_S4x196x32_S4x196x196_2_2_1_1_0_0.rhsIdx j q 2).val = (q ⟨0, by decide⟩).val :=
  dot_S4x196x32_S4x196x32_S4x196x196_2_2_1_1_0_0.rhsIdx_val_of_single rfl j q

/-- The q·kᵀ block product at (b, n, m): the sum over the 32 columns of q (b, n, ·) times k (b, m, ·). -/
theorem qk_apply (L R : FVec Ideal S4x196x32 .bf16) (b : Fin 4) (n m : Fin 196) :
    matmul dot_S4x196x32_S4x196x32_S4x196x196_2_2_1_1_0_0 none L R (constant (F := Ideal) S4x196x196 .f32 0x00000000#32) (ix3 b n m)
      = ∑ k : Fin 32, L (ix3 b n k) * R (ix3 b m k) := by
  simp only [matmul]
  rw [Ideal.matmul_constant_zero_apply, ← Equiv.sum_comp (ValueIdx.contrEquiv1 dot_S4x196x32_S4x196x32_S4x196x196_2_2_1_1_0_0 32 rfl rfl).symm]
  refine Finset.sum_congr rfl fun k _ => ?_
  have hk := ValueIdx.contrEquiv1_symm_val dot_S4x196x32_S4x196x32_S4x196x196_2_2_1_1_0_0 32 rfl rfl k
  have el : dot_S4x196x32_S4x196x32_S4x196x196_2_2_1_1_0_0.lhsIdx (ix3 b n m) ((ValueIdx.contrEquiv1 dot_S4x196x32_S4x196x32_S4x196x196_2_2_1_1_0_0 32 rfl rfl).symm k) = ix3 b n k := funext fun a => Fin.ext (by
    match a with
    | ⟨0, _⟩ => exact qk_lhs_0 _ _
    | ⟨1, _⟩ => exact qk_lhs_1 _ _
    | ⟨2, _⟩ => exact (qk_lhs_2 _ _).trans hk)
  have er : dot_S4x196x32_S4x196x32_S4x196x196_2_2_1_1_0_0.rhsIdx (ix3 b n m) ((ValueIdx.contrEquiv1 dot_S4x196x32_S4x196x32_S4x196x196_2_2_1_1_0_0 32 rfl rfl).symm k) = ix3 b m k := funext fun a => Fin.ext (by
    match a with
    | ⟨0, _⟩ => exact qk_rhs_0 _ _
    | ⟨1, _⟩ => exact qk_rhs_1 _ _
    | ⟨2, _⟩ => exact (qk_rhs_2 _ _).trans hk)
  rw [el, er]

/- Operand indices of the p·v product: batch axis 0, rows of p on axis 1, its 196 columns contracted against the rows of v. -/
theorem pv_lhs_0 (j : S4x196x128.Idx) (q : dot_S4x196x196_S4x196x128_S4x196x128_2_1_1_2_0_0.contr.Idx) :
    (dot_S4x196x196_S4x196x128_S4x196x128_2_1_1_2_0_0.lhsIdx j q 0).val = (j 0).val := by
  unfold DotDims.lhsIdx
  rw [dif_pos (show (0 : Fin S4x196x196.rank) ∈ dot_S4x196x196_S4x196x128_S4x196x128_2_1_1_2_0_0.lhsBatch by decide)]
  rfl
theorem pv_lhs_1 (j : S4x196x128.Idx) (q : dot_S4x196x196_S4x196x128_S4x196x128_2_1_1_2_0_0.contr.Idx) :
    (dot_S4x196x196_S4x196x128_S4x196x128_2_1_1_2_0_0.lhsIdx j q 1).val = (j 1).val := by
  unfold DotDims.lhsIdx
  rw [dif_neg (show ¬(1 : Fin S4x196x196.rank) ∈ dot_S4x196x196_S4x196x128_S4x196x128_2_1_1_2_0_0.lhsBatch by decide), dif_pos (show (1 : Fin S4x196x196.rank) ∈ dot_S4x196x196_S4x196x128_S4x196x128_2_1_1_2_0_0.lhsNonContracting by decide)]
  rfl
theorem pv_lhs_2 (j : S4x196x128.Idx) (q : dot_S4x196x196_S4x196x128_S4x196x128_2_1_1_2_0_0.contr.Idx) :
    (dot_S4x196x196_S4x196x128_S4x196x128_2_1_1_2_0_0.lhsIdx j q 2).val = (q ⟨0, by decide⟩).val :=
  dot_S4x196x196_S4x196x128_S4x196x128_2_1_1_2_0_0.lhsIdx_val_of_single rfl j q
theorem pv_rhs_0 (j : S4x196x128.Idx) (q : dot_S4x196x196_S4x196x128_S4x196x128_2_1_1_2_0_0.contr.Idx) :
    (dot_S4x196x196_S4x196x128_S4x196x128_2_1_1_2_0_0.rhsIdx j q 0).val = (j 0).val := by
  unfold DotDims.rhsIdx
  rw [dif_pos (show (0 : Fin S4x196x128.rank) ∈ dot_S4x196x196_S4x196x128_S4x196x128_2_1_1_2_0_0.rhsBatch by decide)]
  rfl
theorem pv_rhs_1 (j : S4x196x128.Idx) (q : dot_S4x196x196_S4x196x128_S4x196x128_2_1_1_2_0_0.contr.Idx) :
    (dot_S4x196x196_S4x196x128_S4x196x128_2_1_1_2_0_0.rhsIdx j q 1).val = (q ⟨0, by decide⟩).val :=
  dot_S4x196x196_S4x196x128_S4x196x128_2_1_1_2_0_0.rhsIdx_val_of_single rfl j q
theorem pv_rhs_2 (j : S4x196x128.Idx) (q : dot_S4x196x196_S4x196x128_S4x196x128_2_1_1_2_0_0.contr.Idx) :
    (dot_S4x196x196_S4x196x128_S4x196x128_2_1_1_2_0_0.rhsIdx j q 2).val = (j 2).val := by
  unfold DotDims.rhsIdx
  rw [dif_neg (show ¬(2 : Fin S4x196x128.rank) ∈ dot_S4x196x196_S4x196x128_S4x196x128_2_1_1_2_0_0.rhsBatch by decide), dif_pos (show (2 : Fin S4x196x128.rank) ∈ dot_S4x196x196_S4x196x128_S4x196x128_2_1_1_2_0_0.rhsNonContracting by decide)]
  rfl

/-- The p·v block product at (b, n, d): the sum over the 196 keys of p (b, n, ·) times v (b, ·, d). -/
theorem pv_apply (L : FVec Ideal S4x196x196 .bf16) (R : FVec Ideal S4x196x128 .bf16) (b : Fin 4) (n : Fin 196) (d : Fin 128) :
    matmul dot_S4x196x196_S4x196x128_S4x196x128_2_1_1_2_0_0 none L R (constant (F := Ideal) S4x196x128 .f32 0x00000000#32) (ix3 b n d)
      = ∑ k : Fin 196, L (ix3 b n k) * R (ix3 b k d) := by
  simp only [matmul]
  rw [Ideal.matmul_constant_zero_apply, ← Equiv.sum_comp (ValueIdx.contrEquiv1 dot_S4x196x196_S4x196x128_S4x196x128_2_1_1_2_0_0 196 rfl rfl).symm]
  refine Finset.sum_congr rfl fun k _ => ?_
  have hk := ValueIdx.contrEquiv1_symm_val dot_S4x196x196_S4x196x128_S4x196x128_2_1_1_2_0_0 196 rfl rfl k
  have el : dot_S4x196x196_S4x196x128_S4x196x128_2_1_1_2_0_0.lhsIdx (ix3 b n d) ((ValueIdx.contrEquiv1 dot_S4x196x196_S4x196x128_S4x196x128_2_1_1_2_0_0 196 rfl rfl).symm k) = ix3 b n k := funext fun a => Fin.ext (by
    match a with
    | ⟨0, _⟩ => exact pv_lhs_0 _ _
    | ⟨1, _⟩ => exact pv_lhs_1 _ _
    | ⟨2, _⟩ => exact (pv_lhs_2 _ _).trans hk)
  have er : dot_S4x196x196_S4x196x128_S4x196x128_2_1_1_2_0_0.rhsIdx (ix3 b n d) ((ValueIdx.contrEquiv1 dot_S4x196x196_S4x196x128_S4x196x128_2_1_1_2_0_0 196 rfl rfl).symm k) = ix3 b k d := funext fun a => Fin.ext (by
    match a with
    | ⟨0, _⟩ => exact pv_rhs_0 _ _
    | ⟨1, _⟩ => exact (pv_rhs_1 _ _).trans hk
    | ⟨2, _⟩ => exact pv_rhs_2 _ _)
  rw [el, er]

/-! ## Columns of the fused QKV rows -/

/-- A slice of the tile's QKV rows at column offset `o`, read at (b, n, k), is column `o + k` of row (4T+b, n) of the
    reference's fused QKV rows. -/
theorem tileSlice_apply (w o : Nat) (hs : S4x196x3456.Slices ![0, 0, o] ⟨3, ![4, 196, w]⟩)
    (v34 : FVec Ideal S4x196x3456 .f32)
    (hv34 : ∀ (b : Fin 4) (n : Fin 196) (j : Fin 3456), v34 (ix3 b n j) = val_main_v27 (F := Ideal) X g bt W bq (ix3 (brow T b) n j))
    (b : Fin 4) (n : Fin 196) (k : Fin w) (c : Fin 3456) (hc : c.val = o + k.val) :
    extractStridedSlice (⟨3, ![4, 196, w]⟩ : Shape) ![0, 0, o] v34 hs (ix3 b n k)
      = val_main_v27 (F := Ideal) X g bt W bq (ix3 (brow T b) n c) := by
  rw [← hv34]
  exact extractStridedSlice_apply _ v34 hs (ix3 b n k) (ix3 b n c) (fun a => match a with
    | ⟨0, _⟩ => by show b.val = 0 + b.val; omega
    | ⟨1, _⟩ => by show n.val = 0 + n.val; omega
    | ⟨2, _⟩ => by show c.val = o + k.val; exact hc)

/-- Entry (B, h, n, r) of the reference's per-head QKV array is column 192·h + r of row (B, n) of its fused QKV rows:
    the reshape splits the 3456 columns into 18 groups of 192 and the transpose moves the group axis forward. -/
theorem v29_at (B : Fin 256) (h : Fin 18) (n : Fin 196) (r : Fin 192) (c : Fin 3456) (hc : c.val = 192 * h.val + r.val) :
    Cert.ReferenceIdeal.Read.val_main_v29 (F := Ideal) X g bt W bq (ix4 B h n r) = val_main_v27 (F := Ideal) X g bt W bq (ix3 B n c) := by
  rw [Cert.ReferenceIdeal.Read.val_main_v29_apply, Cert.ReferenceIdeal.Read.val_main_v28_apply]
  refine congrArg _ (funext fun a => Fin.ext ?_)
  have hB := B.isLt; have hh := h.isLt; have hn := n.isLt; have hr := r.isLt
  match a with
  | ⟨0, _⟩ => show (((B.val * 196 + n.val) * 18 + h.val) * 192 + r.val) / 677376 = B.val; omega
  | ⟨1, _⟩ => show (((B.val * 196 + n.val) * 18 + h.val) * 192 + r.val) / 3456 % 196 = n.val; omega
  | ⟨2, _⟩ => show (((B.val * 196 + n.val) * 18 + h.val) * 192 + r.val) % 3456 = c.val; omega

/-- The reference's query columns: column k of head h is column 192·h + k of the fused rows. -/
theorem v30_at (B : Fin 256) (h : Fin 18) (n : Fin 196) (k : Fin 32) (c : Fin 3456) (hc : c.val = 192 * h.val + k.val) :
    Cert.ReferenceIdeal.Read.val_main_v30 (F := Ideal) X g bt W bq (ix4 B h n k) = val_main_v27 (F := Ideal) X g bt W bq (ix3 B n c) := by
  rw [Cert.ReferenceIdeal.Read.val_main_v30_apply]
  refine Eq.trans (congrArg _ ?_) (v29_at X g bt W bq B h n ⟨k.val, by have := k.isLt; omega⟩ c hc)
  exact funext fun a => match a with | ⟨0, _⟩ => rfl | ⟨1, _⟩ => rfl | ⟨2, _⟩ => rfl | ⟨3, _⟩ => rfl

/-- The reference's key columns: column k of head h is column 192·h + 32 + k of the fused rows. -/
theorem v31_at (B : Fin 256) (h : Fin 18) (n : Fin 196) (k : Fin 32) (c : Fin 3456) (hc : c.val = 192 * h.val + 32 + k.val) :
    Cert.ReferenceIdeal.Read.val_main_v31 (F := Ideal) X g bt W bq (ix4 B h n k) = val_main_v27 (F := Ideal) X g bt W bq (ix3 B n c) := by
  rw [Cert.ReferenceIdeal.Read.val_main_v31_apply]
  refine Eq.trans (congrArg _ ?_) (v29_at X g bt W bq B h n ⟨32 + k.val, by have := k.isLt; omega⟩ c (by show c.val = 192 * h.val + (32 + k.val); omega))
  exact funext fun a => match a with | ⟨0, _⟩ => rfl | ⟨1, _⟩ => rfl | ⟨2, _⟩ => rfl | ⟨3, _⟩ => rfl

/-- The reference's value columns: column d of head h is column 192·h + 64 + d of the fused rows. -/
theorem v32_at (B : Fin 256) (h : Fin 18) (n : Fin 196) (d : Fin 128) (c : Fin 3456) (hc : c.val = 192 * h.val + 64 + d.val) :
    Cert.ReferenceIdeal.Read.val_main_v32 (F := Ideal) X g bt W bq (ix4 B h n d) = val_main_v27 (F := Ideal) X g bt W bq (ix3 B n c) := by
  rw [Cert.ReferenceIdeal.Read.val_main_v32_apply]
  refine Eq.trans (congrArg _ ?_) (v29_at X g bt W bq B h n ⟨64 + d.val, by have := d.isLt; omega⟩ c (by show c.val = 192 * h.val + (64 + d.val); omega))
  exact funext fun a => match a with | ⟨0, _⟩ => rfl | ⟨1, _⟩ => rfl | ⟨2, _⟩ => rfl | ⟨3, _⟩ => rfl

/-- Column 192·h + o + k of the 3456, for a column k of a w-wide group slice at offset o inside the 192 of head h. -/
abbrev hcol (h : Fin 18) (o w : Nat) (how : o + w ≤ 192) (k : Fin w) : Fin 3456 :=
  ⟨192 * h.val + o + k.val, by have := h.isLt; have := k.isLt; omega⟩

/-- The reference's q·kᵀ of head h at (B, n, m) as a sum over the 32 columns of the fused rows. -/
theorem v40_at (B : Fin 256) (h : Fin 18) (n m : Fin 196) :
    Cert.ReferenceIdeal.Read.val_main_v40 (F := Ideal) X g bt W bq (ix4 B h n m)
      = ∑ k : Fin 32, val_main_v27 (F := Ideal) X g bt W bq (ix3 B n (hcol h 0 32 (by omega) k))
          * val_main_v27 (F := Ideal) X g bt W bq (ix3 B m (hcol h 32 32 (by omega) k)) := by
  rw [Cert.ReferenceIdeal.Read.val_main_v40_apply]
  refine Finset.sum_congr rfl fun k _ => ?_
  have e1 : Cert.ReferenceIdeal.Read.lidx_main_v40 (ix4 B h n m) k = ix4 B h n k :=
    funext fun a => match a with | ⟨0, _⟩ => rfl | ⟨1, _⟩ => rfl | ⟨2, _⟩ => rfl | ⟨3, _⟩ => rfl
  have e2 : Cert.ReferenceIdeal.Read.ridx_main_v40 (ix4 B h n m) k = ix4 B h m k :=
    funext fun a => match a with | ⟨0, _⟩ => rfl | ⟨1, _⟩ => rfl | ⟨2, _⟩ => rfl | ⟨3, _⟩ => rfl
  rw [e1, e2, v30_at X g bt W bq B h n k (hcol h 0 32 (by omega) k) rfl, v31_at X g bt W bq B h m k (hcol h 32 32 (by omega) k) rfl]

/-- The logits (q·kᵀ)·c + bias of head `h` on the tile are the reference's. -/
theorem scores_apply (h : Fin 18) (oq ok : Nat) (hoq : oq = 192 * h.val) (hok : ok = 192 * h.val + 32)
    (hq : S4x196x3456.Slices ![0, 0, oq] S4x196x32) (hk : S4x196x3456.Slices ![0, 0, ok] S4x196x32)
    (v34 : FVec Ideal S4x196x3456 .f32) (bh : Vec Ideal S1x196x196 .f32)
    (hv34 : ∀ (b : Fin 4) (n : Fin 196) (j : Fin 3456), v34 (ix3 b n j) = val_main_v27 (F := Ideal) X g bt W bq (ix3 (brow T b) n j))
    (hbh : ∀ (n m : Fin 196), bh (ix3 (0 : Fin 1) n m) = val_main_v39 (F := Ideal) A I (ix3 h n m))
    (b : Fin 4) (n m : Fin 196) :
    scores (F := Ideal) oq ok hq hk v34 bh (ix3 b n m) = val_main_v45 (F := Ideal) X g bt W bq A I (ix4 (brow T b) h n m) := by
  -- the block product is the reference's q·kᵀ: both are the same sum over columns of the fused rows
  have hmm : matmul dot_S4x196x32_S4x196x32_S4x196x196_2_2_1_1_0_0 none
        (truncf .bf16 (extractStridedSlice S4x196x32 ![0, 0, oq] v34 hq) bitsLt_bf16_f32)
        (truncf .bf16 (extractStridedSlice S4x196x32 ![0, 0, ok] v34 hk) bitsLt_bf16_f32)
        (constant (F := Ideal) S4x196x196 .f32 0x00000000#32) (ix3 b n m)
      = Cert.ReferenceIdeal.Read.val_main_v40 (F := Ideal) X g bt W bq (ix4 (brow T b) h n m) := by
    rw [qk_apply, v40_at]
    refine Finset.sum_congr rfl fun k _ => ?_
    rw [truncf_apply, truncf_apply,
      tileSlice_apply T X g bt W bq 32 oq hq v34 hv34 b n k (hcol h 0 32 (by omega) k) (by show 192 * h.val + 0 + k.val = oq + k.val; omega),
      tileSlice_apply T X g bt W bq 32 ok hk v34 hv34 b m k (hcol h 32 32 (by omega) k) (by show 192 * h.val + 32 + k.val = ok + k.val; omega)]
  -- the scale is the same word
  have hc : (broadcast S4x196x196 (Scalar.ofBits (F := Ideal) .f32 0x3E3504F3#32)) (ix3 b n m)
      = Cert.ReferenceIdeal.Read.val_main_v41 (F := Ideal) (ix4 (brow T b) h n m) := by
    rw [Cert.ReferenceIdeal.Read.val_main_v41_apply]; rfl
  -- the bias slab repeated over the tile's rows is row h of the reference's bias, repeated over all rows
  have hb : broadcastTo S4x196x196
        (shapeCast S1x196x196 (shapeCast S196x196 bh shapeCasts_S1x196x196_S196x196) shapeCasts_S196x196_S1x196x196)
        broadcasts_S1x196x196_S4x196x196 (ix3 b n m)
      = Cert.ReferenceIdeal.Read.val_main_v44 (F := Ideal) A I (ix4 (brow T b) h n m) := by
    rw [shapeCast_shapeCast]
    refine (broadcastTo_apply bh broadcasts_S1x196x196_S4x196x196 (ix3 b n m) (ix3 (0 : Fin 1) n m) (fun a => match a with
      | ⟨0, _⟩ => by show (0 : Nat) = if (1 : Nat) = 1 then 0 else b.val; rw [if_pos rfl]
      | ⟨1, _⟩ => by show n.val = if (196 : Nat) = 1 then 0 else n.val; rw [if_neg (by decide)]
      | ⟨2, _⟩ => by show m.val = if (196 : Nat) = 1 then 0 else m.val; rw [if_neg (by decide)])).trans ?_
    rw [hbh, Cert.ReferenceIdeal.Read.val_main_v44_apply, Cert.ReferenceIdeal.Read.val_main_v43_apply]
    exact congrArg _ (funext fun a => match a with | ⟨0, _⟩ => rfl | ⟨1, _⟩ => rfl | ⟨2, _⟩ => rfl)
  exact congrArg₂ (· + ·) (congrArg₂ (· * ·) hmm hc) hb

/-- Head `h` on the tile — softmax of the logits times the value columns — is the reference's head output. -/
theorem head_apply (h : Fin 18) (oq ok ov : Nat) (hoq : oq = 192 * h.val) (hok : ok = 192 * h.val + 32) (hov : ov = 192 * h.val + 64)
    (hq : S4x196x3456.Slices ![0, 0, oq] S4x196x32) (hk : S4x196x3456.Slices ![0, 0, ok] S4x196x32)
    (hv : S4x196x3456.Slices ![0, 0, ov] S4x196x128)
    (v34 : FVec Ideal S4x196x3456 .f32) (bh : Vec Ideal S1x196x196 .f32)
    (hv34 : ∀ (b : Fin 4) (n : Fin 196) (j : Fin 3456), v34 (ix3 b n j) = val_main_v27 (F := Ideal) X g bt W bq (ix3 (brow T b) n j))
    (hbh : ∀ (n m : Fin 196), bh (ix3 (0 : Fin 1) n m) = val_main_v39 (F := Ideal) A I (ix3 h n m))
    (b : Fin 4) (n : Fin 196) (d : Fin 128) :
    head (F := Ideal) oq ok ov hq hk hv v34 bh (ix3 b n d) = val_main_v57 (F := Ideal) X g bt W bq A I (ix4 (brow T b) h n d) := by
  unfold head
  rw [truncf_apply, pv_apply, Cert.ReferenceIdeal.Read.val_main_v57_apply]
  refine Finset.sum_congr rfl fun k _ => ?_
  have e1 : Cert.ReferenceIdeal.Read.lidx_main_v57 (ix4 (brow T b) h n d) k = ix4 (brow T b) h n k :=
    funext fun a => match a with | ⟨0, _⟩ => rfl | ⟨1, _⟩ => rfl | ⟨2, _⟩ => rfl | ⟨3, _⟩ => rfl
  have e2 : Cert.ReferenceIdeal.Read.ridx_main_v57 (ix4 (brow T b) h n d) k = ix4 (brow T b) h k d :=
    funext fun a => match a with | ⟨0, _⟩ => rfl | ⟨1, _⟩ => rfl | ⟨2, _⟩ => rfl | ⟨3, _⟩ => rfl
  rw [e1, e2, truncf_apply, truncf_apply,
    probs_apply T X g bt W bq A I h (scores (F := Ideal) oq ok hq hk v34 bh)
      (fun b n m => scores_apply T X g bt W bq A I h oq ok hoq hok hq hk v34 bh hv34 hbh b n m) b n k,
    v32_at X g bt W bq (brow T b) h k d (hcol h 64 128 (by omega) d) rfl,
    tileSlice_apply T X g bt W bq 128 ov hv v34 hv34 b k d (hcol h 64 128 (by omega) d) (by show 192 * h.val + 64 + d.val = ov + d.val; omega)]

end Cert.KernelIdeal.Hand

end
-- ==== Proof.TileCat.lean ====
/-
  The 18 heads laid side by side are the reference's [256,196,2304] array on rows 4T … 4T+3.
-/
import proofs.«148307_j15985868275953_1_alg».proof.Proof.KForm
import proofs.«148307_j15985868275953_1_alg».proof.Proof.Gen.ReferenceIdeal.Read
import proofs.«148307_j15985868275953_1_alg».proof.Proof.TileHead
import Idealize.ShloMosaic.Lib.ValueIdx
import Idealize.ShloMosaic.Lib.Pipeline.Value
import Idealize.ShloMosaic.PureOps.Ideal.Laws

set_option maxRecDepth 65536

noncomputable section

namespace Cert.KernelIdeal.Hand

open Cert.KernelIdeal Cert.KernelIdeal.Gen Idealize.ShloMosaic Idealize.ShloMosaic.TcCoe Idealize.SL.Sem Idealize.ShloMosaic.ValueIdx
open Cert.ReferenceIdeal.Read (val_main_v27 val_main_v39 val_main_v45 val_main_v56 val_main_v57 val_main_v59 val_main_v63)

variable (T : Fin 64)
variable (X : Vec Ideal S256x196x576 .f32) (g bt : Vec Ideal S576 .f32) (W : Vec Ideal S576x3456 .bf16) (bq : Vec Ideal S3456 .f32)
variable (A : Vec Ideal S18x196 .f32) (I : (⟨S196x196, .i32⟩ : BufTy).Contents (Elt Ideal))

/-- The tile's 18 head outputs as a family over the head number. -/
def headFam (v34 : FVec Ideal S4x196x3456 .f32) (bs : Fin 18 → Vec Ideal S1x196x196 .f32) : Fin 18 → FVec Ideal S4x196x128 .bf16 :=
  ![head (F := Ideal) 0 32 64 slices_S4x196x3456_o0_0_0_S4x196x32 slices_S4x196x3456_o0_0_32_S4x196x32 slices_S4x196x3456_o0_0_64_S4x196x128 v34 (bs 0),
    head (F := Ideal) 192 224 256 slices_S4x196x3456_o0_0_192_S4x196x32 slices_S4x196x3456_o0_0_224_S4x196x32 slices_S4x196x3456_o0_0_256_S4x196x128 v34 (bs 1),
    head (F := Ideal) 384 416 448 slices_S4x196x3456_o0_0_384_S4x196x32 slices_S4x196x3456_o0_0_416_S4x196x32 slices_S4x196x3456_o0_0_448_S4x196x128 v34 (bs 2),
    head (F := Ideal) 576 608 640 slices_S4x196x3456_o0_0_576_S4x196x32 slices_S4x196x3456_o0_0_608_S4x196x32 slices_S4x196x3456_o0_0_640_S4x196x128 v34 (bs 3),
    head (F := Ideal) 768 800 832 slices_S4x196x3456_o0_0_768_S4x196x32 slices_S4x196x3456_o0_0_800_S4x196x32 slices_S4x196x3456_o0_0_832_S4x196x128 v34 (bs 4),
    head (F := Ideal) 960 992 1024 slices_S4x196x3456_o0_0_960_S4x196x32 slices_S4x196x3456_o0_0_992_S4x196x32 slices_S4x196x3456_o0_0_1024_S4x196x128 v34 (bs 5),
    head (F := Ideal) 1152 1184 1216 slices_S4x196x3456_o0_0_1152_S4x196x32 slices_S4x196x3456_o0_0_1184_S4x196x32 slices_S4x196x3456_o0_0_1216_S4x196x128 v34 (bs 6),
    head (F := Ideal) 1344 1376 1408 slices_S4x196x3456_o0_0_1344_S4x196x32 slices_S4x196x3456_o0_0_1376_S4x196x32 slices_S4x196x3456_o0_0_1408_S4x196x128 v34 (bs 7),
    head (F := Ideal) 1536 1568 1600 slices_S4x196x3456_o0_0_1536_S4x196x32 slices_S4x196x3456_o0_0_1568_S4x196x32 slices_S4x196x3456_o0_0_1600_S4x196x128 v34 (bs 8),
    head (F := Ideal) 1728 1760 1792 slices_S4x196x3456_o0_0_1728_S4x196x32 slices_S4x196x3456_o0_0_1760_S4x196x32 slices_S4x196x3456_o0_0_1792_S4x196x128 v34 (bs 9),
    head (F := Ideal) 1920 1952 1984 slices_S4x196x3456_o0_0_1920_S4x196x32 slices_S4x196x3456_o0_0_1952_S4x196x32 slices_S4x196x3456_o0_0_1984_S4x196x128 v34 (bs 10),
    head (F := Ideal) 2112 2144 2176 slices_S4x196x3456_o0_0_2112_S4x196x32 slices_S4x196x3456_o0_0_2144_S4x196x32 slices_S4x196x3456_o0_0_2176_S4x196x128 v34 (bs 11),
    head (F := Ideal) 2304 2336 2368 slices_S4x196x3456_o0_0_2304_S4x196x32 slices_S4x196x3456_o0_0_2336_S4x196x32 slices_S4x196x3456_o0_0_2368_S4x196x128 v34 (bs 12),
    head (F := Ideal) 2496 2528 2560 slices_S4x196x3456_o0_0_2496_S4x196x32 slices_S4x196x3456_o0_0_2528_S4x196x32 slices_S4x196x3456_o0_0_2560_S4x196x128 v34 (bs 13),
    head (F := Ideal) 2688 2720 2752 slices_S4x196x3456_o0_0_2688_S4x196x32 slices_S4x196x3456_o0_0_2720_S4x196x32 slices_S4x196x3456_o0_0_2752_S4x196x128 v34 (bs 14),
    head (F := Ideal) 2880 2912 2944 slices_S4x196x3456_o0_0_2880_S4x196x32 slices_S4x196x3456_o0_0_2912_S4x196x32 slices_S4x196x3456_o0_0_2944_S4x196x128 v34 (bs 15),
    head (F := Ideal) 3072 3104 3136 slices_S4x196x3456_o0_0_3072_S4x196x32 slices_S4x196x3456_o0_0_3104_S4x196x32 slices_S4x196x3456_o0_0_3136_S4x196x128 v34 (bs 16),
    head (F := Ideal) 3264 3296 3328 slices_S4x196x3456_o0_0_3264_S4x196x32 slices_S4x196x3456_o0_0_3296_S4x196x32 slices_S4x196x3456_o0_0_3328_S4x196x128 v34 (bs 17)]

/-- The side-by-side array of the 18 heads is the concatenation of the family's members in order. -/
theorem headsCat_ofFn (v34 : FVec Ideal S4x196x3456 .f32) (bs : Fin 18 → Vec Ideal S1x196x196 .f32)
    (h : Shape.Concatenates ((List.ofFn fun k : Fin 18 => (⟨S4x196x128, headFam v34 bs k⟩ : (s : Shape) × (s.Idx → Ideal .bf16))).map (·.1)) S4x196x2304 2) :
    headsCat (F := Ideal) v34 bs
      = concatenate S4x196x2304 2 (List.ofFn fun k : Fin 18 => (⟨S4x196x128, headFam v34 bs k⟩ : (s : Shape) × (s.Idx → Ideal .bf16))) h := rfl

/-- Each member of the family is the reference's head output of that head number on the tile's rows. -/
theorem headFam_apply (v34 : FVec Ideal S4x196x3456 .f32) (bs : Fin 18 → Vec Ideal S1x196x196 .f32)
    (hv34 : ∀ (b : Fin 4) (n : Fin 196) (j : Fin 3456), v34 (ix3 b n j) = val_main_v27 (F := Ideal) X g bt W bq (ix3 (brow T b) n j))
    (hbs : ∀ (h : Fin 18) (n m : Fin 196), bs h (ix3 (0 : Fin 1) n m) = val_main_v39 (F := Ideal) A I (ix3 h n m))
    (h : Fin 18) (b : Fin 4) (n : Fin 196) (d : Fin 128) :
    headFam v34 bs h (ix3 b n d) = val_main_v57 (F := Ideal) X g bt W bq A I (ix4 (brow T b) h n d) := by
  match h with
  | ⟨0, _⟩ => exact head_apply T X g bt W bq A I (0 : Fin 18) 0 32 64 rfl rfl rfl _ _ _ v34 (bs 0) hv34 (hbs 0) b n d
  | ⟨1, _⟩ => exact head_apply T X g bt W bq A I (1 : Fin 18) 192 224 256 rfl rfl rfl _ _ _ v34 (bs 1) hv34 (hbs 1) b n d
  | ⟨2, _⟩ => exact head_apply T X g bt W bq A I (2 : Fin 18) 384 416 448 rfl rfl rfl _ _ _ v34 (bs 2) hv34 (hbs 2) b n d
  | ⟨3, _⟩ => exact head_apply T X g bt W bq A I (3 : Fin 18) 576 608 640 rfl rfl rfl _ _ _ v34 (bs 3) hv34 (hbs 3) b n d
  | ⟨4, _⟩ => exact head_apply T X g bt W bq A I (4 : Fin 18) 768 800 832 rfl rfl rfl _ _ _ v34 (bs 4) hv34 (hbs 4) b n d
  | ⟨5, _⟩ => exact head_apply T X g bt W bq A I (5 : Fin 18) 960 992 1024 rfl rfl rfl _ _ _ v34 (bs 5) hv34 (hbs 5) b n d
  | ⟨6, _⟩ => exact head_apply T X g bt W bq A I (6 : Fin 18) 1152 1184 1216 rfl rfl rfl _ _ _ v34 (bs 6) hv34 (hbs 6) b n d
  | ⟨7, _⟩ => exact head_apply T X g bt W bq A I (7 : Fin 18) 1344 1376 1408 rfl rfl rfl _ _ _ v34 (bs 7) hv34 (hbs 7) b n d
  | ⟨8, _⟩ => exact head_apply T X g bt W bq A I (8 : Fin 18) 1536 1568 1600 rfl rfl rfl _ _ _ v34 (bs 8) hv34 (hbs 8) b n d
  | ⟨9, _⟩ => exact head_apply T X g bt W bq A I (9 : Fin 18) 1728 1760 1792 rfl rfl rfl _ _ _ v34 (bs 9) hv34 (hbs 9) b n d
  | ⟨10, _⟩ => exact head_apply T X g bt W bq A I (10 : Fin 18) 1920 1952 1984 rfl rfl rfl _ _ _ v34 (bs 10) hv34 (hbs 10) b n d
  | ⟨11, _⟩ => exact head_apply T X g bt W bq A I (11 : Fin 18) 2112 2144 2176 rfl rfl rfl _ _ _ v34 (bs 11) hv34 (hbs 11) b n d
  | ⟨12, _⟩ => exact head_apply T X g bt W bq A I (12 : Fin 18) 2304 2336 2368 rfl rfl rfl _ _ _ v34 (bs 12) hv34 (hbs 12) b n d
  | ⟨13, _⟩ => exact head_apply T X g bt W bq A I (13 : Fin 18) 2496 2528 2560 rfl rfl rfl _ _ _ v34 (bs 13) hv34 (hbs 13) b n d
  | ⟨14, _⟩ => exact head_apply T X g bt W bq A I (14 : Fin 18) 2688 2720 2752 rfl rfl rfl _ _ _ v34 (bs 14) hv34 (hbs 14) b n d
  | ⟨15, _⟩ => exact head_apply T X g bt W bq A I (15 : Fin 18) 2880 2912 2944 rfl rfl rfl _ _ _ v34 (bs 15) hv34 (hbs 15) b n d
  | ⟨16, _⟩ => exact head_apply T X g bt W bq A I (16 : Fin 18) 3072 3104 3136 rfl rfl rfl _ _ _ v34 (bs 16) hv34 (hbs 16) b n d
  | ⟨17, _⟩ => exact head_apply T X g bt W bq A I (17 : Fin 18) 3264 3296 3328 rfl rfl rfl _ _ _ v34 (bs 17) hv34 (hbs 17) b n d
  | ⟨k + 18, hk⟩ => exact absurd hk (by omega)

/-- Column c of the tile's concatenated heads is head c / 128 at column c % 128, which is what the reference's
    transpose and reshape of its [256,18,196,128] head outputs put at (4T+b, n, c). -/
theorem cat_apply (v34 : FVec Ideal S4x196x3456 .f32) (bs : Fin 18 → Vec Ideal S1x196x196 .f32)
    (hv34 : ∀ (b : Fin 4) (n : Fin 196) (j : Fin 3456), v34 (ix3 b n j) = val_main_v27 (F := Ideal) X g bt W bq (ix3 (brow T b) n j))
    (hbs : ∀ (h : Fin 18) (n m : Fin 196), bs h (ix3 (0 : Fin 1) n m) = val_main_v39 (F := Ideal) A I (ix3 h n m))
    (b : Fin 4) (n : Fin 196) (c : Fin 2304) :
    headsCat (F := Ideal) v34 bs (ix3 b n c) = val_main_v59 (F := Ideal) X g bt W bq A I (ix3 (brow T b) n c) := by
  have hT : T.val < 64 := T.isLt
  have hb : b.val < 4 := b.isLt
  have hn : n.val < 196 := n.isLt
  have hc : c.val < 2304 := c.isLt
  have h0 : Shape.Concatenates ((List.ofFn fun k : Fin 18 => (⟨S4x196x128, headFam v34 bs k⟩ : (s : Shape) × (s.Idx → Ideal .bf16))).map (·.1)) S4x196x2304 2 :=
    concatenates_S4x196x128_S4x196x128_S4x196x128_S4x196x128_S4x196x128_S4x196x128_S4x196x128_S4x196x128_S4x196x128_S4x196x128_S4x196x128_S4x196x128_S4x196x128_S4x196x128_S4x196x128_S4x196x128_S4x196x128_S4x196x128_S4x196x2304_d2
  rw [headsCat_ofFn v34 bs h0]
  -- column c lies in head c / 128, at column c % 128 of that head
  refine (concatenate_ofFn_apply (2 : Fin S4x196x2304.rank) (headFam v34 bs) h0 rfl 128 rfl (ix3 b n c)
    (⟨c.val / 128, by omega⟩ : Fin 18) rfl (ix3 b n (⟨c.val % 128, by omega⟩ : Fin 128)) rfl ?_).trans ?_
  · intro a ha
    match a with
    | ⟨0, _⟩ => rfl
    | ⟨1, _⟩ => rfl
    | ⟨2, _⟩ => exact absurd rfl ha
  · rw [headFam_apply T X g bt W bq A I v34 bs hv34 hbs, Cert.ReferenceIdeal.Read.val_main_v59_apply, Cert.ReferenceIdeal.Read.val_main_v58_apply]
    congr 1
    funext a
    apply Fin.ext
    match a with
    | ⟨0, _⟩ =>
      show 4 * T.val + b.val = (((4 * T.val + b.val) * 196 + n.val) * 2304 + c.val) / 451584
      omega
    | ⟨1, _⟩ =>
      show c.val / 128 = (((4 * T.val + b.val) * 196 + n.val) * 2304 + c.val) / 128 % 18
      omega
    | ⟨2, _⟩ =>
      show n.val = (((4 * T.val + b.val) * 196 + n.val) * 2304 + c.val) / 2304 % 196
      omega
    | ⟨3, _⟩ =>
      show c.val % 128 = (((4 * T.val + b.val) * 196 + n.val) * 2304 + c.val) % 128
      omega

end Cert.KernelIdeal.Hand

end
-- ==== Proof.TileProj.lean ====
/-
  The output projection of a tile is the reference's output on rows 4T … 4T+3.
-/
import proofs.«148307_j15985868275953_1_alg».proof.Proof.KForm
import proofs.«148307_j15985868275953_1_alg».proof.Proof.Gen.ReferenceIdeal.Read
import Idealize.ShloMosaic.Lib.ValueIdx
import Idealize.ShloMosaic.Lib.Pipeline.Value
import Idealize.ShloMosaic.PureOps.Ideal.Laws

set_option maxRecDepth 65536

noncomputable section

namespace Cert.KernelIdeal.Hand

open Cert.KernelIdeal Cert.KernelIdeal.Gen Idealize.ShloMosaic Idealize.ShloMosaic.TcCoe Idealize.SL.Sem Idealize.ShloMosaic.ValueIdx
open Cert.ReferenceIdeal.Read (val_main_v27 val_main_v39 val_main_v45 val_main_v56 val_main_v57 val_main_v59 val_main_v63)

variable (T : Fin 64)
variable (X : Vec Ideal S256x196x576 .f32) (g bt : Vec Ideal S576 .f32) (W : Vec Ideal S576x3456 .bf16) (bq : Vec Ideal S3456 .f32)
variable (A : Vec Ideal S18x196 .f32) (I : (⟨S196x196, .i32⟩ : BufTy).Contents (Elt Ideal))

/-- The projection's product reads its left operand's row from the output index's row coordinate. -/
theorem lhs_proj_0 (i : S784x576.Idx) (q : dot_S784x2304_S2304x576_S784x576_1_0_0_1_n_n.contr.Idx) :
    (dot_S784x2304_S2304x576_S784x576_1_0_0_1_n_n.lhsIdx i q 0).val = (i 0).val := by
  unfold DotDims.lhsIdx
  rw [dif_neg (show ¬(0 : Fin S784x2304.rank) ∈ dot_S784x2304_S2304x576_S784x576_1_0_0_1_n_n.lhsBatch by decide), dif_pos (show (0 : Fin S784x2304.rank) ∈ dot_S784x2304_S2304x576_S784x576_1_0_0_1_n_n.lhsNonContracting by decide)]
  rfl
/-- … and its left operand's column from the summation index. -/
theorem lhs_proj_1 (i : S784x576.Idx) (q : dot_S784x2304_S2304x576_S784x576_1_0_0_1_n_n.contr.Idx) :
    (dot_S784x2304_S2304x576_S784x576_1_0_0_1_n_n.lhsIdx i q 1).val = (q ⟨0, by decide⟩).val :=
  dot_S784x2304_S2304x576_S784x576_1_0_0_1_n_n.lhsIdx_val_of_single rfl i q
/-- The right operand's row is the summation index … -/
theorem rhs_proj_0 (i : S784x576.Idx) (q : dot_S784x2304_S2304x576_S784x576_1_0_0_1_n_n.contr.Idx) :
    (dot_S784x2304_S2304x576_S784x576_1_0_0_1_n_n.rhsIdx i q 0).val = (q ⟨0, by decide⟩).val :=
  dot_S784x2304_S2304x576_S784x576_1_0_0_1_n_n.rhsIdx_val_of_single rfl i q
/-- … and its column the output index's column. -/
theorem rhs_proj_1 (i : S784x576.Idx) (q : dot_S784x2304_S2304x576_S784x576_1_0_0_1_n_n.contr.Idx) :
    (dot_S784x2304_S2304x576_S784x576_1_0_0_1_n_n.rhsIdx i q 1).val = (i 1).val := by
  unfold DotDims.rhsIdx
  rw [dif_neg (show ¬(1 : Fin S2304x576.rank) ∈ dot_S784x2304_S2304x576_S784x576_1_0_0_1_n_n.rhsBatch by decide), dif_pos (show (1 : Fin S2304x576.rank) ∈ dot_S784x2304_S2304x576_S784x576_1_0_0_1_n_n.rhsNonContracting by decide)]
  rfl

/-- The product of the tile's [784,2304] rows with the weight, at row 196·b + n and column j, is
    Σ_k cat[b,n,k] · wp[k,j]. -/
theorem proj_matmul_apply (cat : FVec Ideal S4x196x2304 .bf16) (wp : FVec Ideal S2304x576 .bf16)
    (b : Fin 4) (n : Fin 196) (j : Fin 576) (r : Fin 784) (hr : r.val = 196 * b.val + n.val) :
    matmul dot_S784x2304_S2304x576_S784x576_1_0_0_1_n_n none (shapeCast S784x2304 cat shapeCasts_S4x196x2304_S784x2304) wp
        (constant S784x576 .f32 0x00000000#32) (ix2 r j)
      = ∑ k : Fin 2304, cat (ix3 b n k) * wp (ix2 k j) := by
  refine (Ideal.matmul_constant_zero_apply dot_S784x2304_S2304x576_S784x576_1_0_0_1_n_n none _ _ _).trans ?_
  rw [← Equiv.sum_comp (contrEquiv1 dot_S784x2304_S2304x576_S784x576_1_0_0_1_n_n 2304 rfl rfl).symm]
  refine Finset.sum_congr rfl fun k _ => ?_
  have hk := contrEquiv1_symm_val dot_S784x2304_S2304x576_S784x576_1_0_0_1_n_n 2304 rfl rfl k
  have el : dot_S784x2304_S2304x576_S784x576_1_0_0_1_n_n.lhsIdx (ix2 r j) ((contrEquiv1 dot_S784x2304_S2304x576_S784x576_1_0_0_1_n_n 2304 rfl rfl).symm k) = ix2 r k := funext fun a => Fin.ext (by
    match a with
    | ⟨0, _⟩ => exact lhs_proj_0 _ _
    | ⟨1, _⟩ => exact (lhs_proj_1 _ _).trans hk)
  have er : dot_S784x2304_S2304x576_S784x576_1_0_0_1_n_n.rhsIdx (ix2 r j) ((contrEquiv1 dot_S784x2304_S2304x576_S784x576_1_0_0_1_n_n 2304 rfl rfl).symm k) = ix2 k j := funext fun a => Fin.ext (by
    match a with
    | ⟨0, _⟩ => exact (rhs_proj_0 _ _).trans hk
    | ⟨1, _⟩ => exact rhs_proj_1 _ _)
  rw [el, er]
  refine congrArg (· * wp (ix2 k j)) ?_
  exact shapeCast_apply cat shapeCasts_S4x196x2304_S784x2304 (ix2 r k) (ix3 b n k) (by
    rewrite [Shape.rowMajor_val_two, Shape.rowMajor_val_three]
    show (b.val * 196 + n.val) * 2304 + k.val = r.val * 2304 + k.val
    omega)

/-- The bias row, shaped [1,576] and repeated over the 784 rows, at column j is bp[j]. -/
theorem proj_bias_apply (bp : Vec Ideal S576 .f32) (r : Fin 784) (j : Fin 576) :
    broadcastTo S784x576 (shapeCast S1x576 bp shapeCasts_S576_S1x576) broadcasts_S1x576_S784x576 (ix2 r j)
      = bp (ix1 j) := by
  refine (broadcastTo_apply _ broadcasts_S1x576_S784x576 (ix2 r j) (ix2 (0 : Fin 1) j) (fun a => by
    match a with
    | ⟨0, _⟩ => show 0 = if (1 : Nat) = 1 then 0 else r.val; rw [if_pos rfl]
    | ⟨1, _⟩ => show j.val = if (576 : Nat) = 1 then 0 else j.val; rw [if_neg (by decide)])).trans ?_
  exact shapeCast_apply bp shapeCasts_S576_S1x576 (ix2 (0 : Fin 1) j) (ix1 j) (by
    rewrite [Shape.rowMajor_val_one, Shape.rowMajor_val_two]
    show j.val = 0 * 576 + j.val
    omega)

/-- The product of the tile's concatenated heads with the projection weight, plus its bias, is the reference's result
    on rows 4T … 4T+3. -/
theorem proj_apply (cat : FVec Ideal S4x196x2304 .bf16) (wp : Vec Ideal S2304x576 .bf16) (bp : Vec Ideal S576 .f32)
    (hcat : ∀ (b : Fin 4) (n : Fin 196) (c : Fin 2304), cat (ix3 b n c) = val_main_v59 (F := Ideal) X g bt W bq A I (ix3 (brow T b) n c))
    (b : Fin 4) (n : Fin 196) (j : Fin 576) :
    k0_pay1 (F := Ideal) (shapeCast S784x2304 cat shapeCasts_S4x196x2304_S784x2304) wp bp (ix3 b n j)
      = val_main_v63 (F := Ideal) X g bt W bq wp bp A I (ix3 (brow T b) n j) := by
  have hrow : 196 * b.val + n.val < 784 := by have := b.isLt; have := n.isLt; omega
  unfold k0_pay1
  refine (shapeCast_apply _ shapeCasts_S784x576_S4x196x576 (ix3 b n j) (ix2 (⟨196 * b.val + n.val, hrow⟩ : Fin 784) j) (by
    rewrite [Shape.rowMajor_val_two, Shape.rowMajor_val_three]
    show (196 * b.val + n.val) * 576 + j.val = (b.val * 196 + n.val) * 576 + j.val
    omega)).trans ?_
  rw [addf_apply, shapeCast_self, proj_matmul_apply cat wp b n j ⟨196 * b.val + n.val, hrow⟩ rfl, proj_bias_apply]
  rw [Cert.ReferenceIdeal.Read.val_main_v63_apply, Cert.ReferenceIdeal.Read.val_main_v60_apply,
    Cert.ReferenceIdeal.Read.val_main_v62_apply, Cert.ReferenceIdeal.Read.val_main_v61_apply]
  show _ = _ + _
  refine congrArg₂ (· + ·) (Finset.sum_congr rfl fun k _ => ?_) (congrArg bp (funext fun a => Fin.ext ?_))
  · rw [hcat b n k]
    refine congrArg₂ (· * ·) (congrArg _ (funext fun a => ?_)) (congrArg wp (funext fun a => ?_))
    · match a with
      | ⟨0, _⟩ => rfl
      | ⟨1, _⟩ => rfl
      | ⟨2, _⟩ => rfl
    · match a with
      | ⟨0, _⟩ => rfl
      | ⟨1, _⟩ => rfl
  · match a with
    | ⟨0, _⟩ => rfl

end Cert.KernelIdeal.Hand

end
-- ==== Proof.Tile.lean ====
/-
  One grid point's stored block is the reference's result on batch rows 4T … 4T+3.

  The body's store is the projection of the 18 concatenated heads over the tile's normalised QKV rows (KForm.lean).
  Each stage on the tile equals the reference's stage on rows 4T … 4T+3: the QKV rows, every head (through its
  logits and softmax), their concatenation and the projection; chained, the stored block at (b, n, j) is the
  reference's result at (4T + b, n, j).
-/
import proofs.«148307_j15985868275953_1_alg».proof.Proof.KForm
import proofs.«148307_j15985868275953_1_alg».proof.Proof.Gen.ReferenceIdeal.Read
import proofs.«148307_j15985868275953_1_alg».proof.Proof.TileQKV
import proofs.«148307_j15985868275953_1_alg».proof.Proof.TileCat
import proofs.«148307_j15985868275953_1_alg».proof.Proof.TileProj
import Idealize.ShloMosaic.Lib.ValueIdx
import Idealize.ShloMosaic.Lib.Pipeline.Value

set_option maxRecDepth 65536

noncomputable section

namespace Cert.KernelIdeal.Hand

open Cert.KernelIdeal Cert.KernelIdeal.Gen Idealize.ShloMosaic Idealize.ShloMosaic.TcCoe Idealize.SL.Sem Idealize.ShloMosaic.ValueIdx
open Cert.ReferenceIdeal.Read (val_main_v27 val_main_v39 val_main_v59 val_main_v63)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

variable {F : FTy → Type} [FloatOps F]

/-- Head h's bias slab, read at (0, n, m), is the bias block at (h, n, m): the slab is the rectangle of rows h … h
    of the [18,196,196] block. -/
theorem slabs_apply (x7 : Vec F S18x196x196 .f32) (h : Fin 18) (n m : Fin 196) :
    slabs x7 h (ix3 (0 : Fin 1) n m) = x7 (ix3 h n m) := by
  fin_cases h <;> exact congrArg x7 (funext fun a => Fin.ext (by
    match a with
    | ⟨0, _⟩ => rfl
    | ⟨1, _⟩ => show 0 + 1 * n.val = n.val; omega
    | ⟨2, _⟩ => show 0 + 1 * m.val = m.val; omega))

/-- The loads through whole rectangles read the blocks themselves. -/
theorem qkvTile_eq (x0 : Vec F S4x196x576 .f32) (x1 x2 : Vec F S576 .f32) (x3 : Vec F S576x3456 .bf16) (x4 : Vec F S3456 .f32) :
    qkvTile x0 x1 x2 x3 x4 = k0_pay2 x0 x1 x2 x3 x4 := by
  unfold qkvTile
  rw [View.ld_unit_zero (S := S4x196x576) hz3, View.ld_unit_zero (S := S576) hz1, View.ld_unit_zero (S := S576) hz1,
    View.ld_unit_zero (S := S576x3456) hz2, View.ld_unit_zero (S := S3456) hz1]

variable (T : Fin 64)
variable (X : Vec Ideal S256x196x576 .f32) (g bt : Vec Ideal S576 .f32) (W : Vec Ideal S576x3456 .bf16) (bq : Vec Ideal S3456 .f32)
variable (A : Vec Ideal S18x196 .f32) (I : (⟨S196x196, .i32⟩ : BufTy).Contents (Elt Ideal))

/-- THE TILE: with the x block rows 4T … 4T+3 of the input and the bias block the reference's gathered bias, the block the
    body stores is rows 4T … 4T+3 of the reference's result. -/
theorem tile_apply (xb : Vec Ideal S4x196x576 .f32) (wp : Vec Ideal S2304x576 .bf16) (bp : Vec Ideal S576 .f32)
    (x7 : Vec Ideal S18x196x196 .f32)
    (hx : ∀ (b : Fin 4) (n : Fin 196) (d : Fin 576), xb (ix3 b n d) = X (ix3 (brow T b) n d))
    (hx7 : ∀ (h : Fin 18) (n m : Fin 196), x7 (ix3 h n m) = val_main_v39 (F := Ideal) A I (ix3 h n m))
    (b : Fin 4) (n : Fin 196) (j : Fin 576) :
    out0_8 (F := Ideal) xb g bt W bq wp bp x7 (ix3 b n j)
      = val_main_v63 (F := Ideal) X g bt W bq wp bp A I (ix3 (brow T b) n j) := by
  rw [out0_8_eq, View.canon_unit_zero hz3, View.ld_unit_zero (S := S2304x576) hz2, View.ld_unit_zero (S := S576) hz1, qkvTile_eq]
  exact proj_apply T X g bt W bq A I _ wp bp
    (fun b n c => cat_apply T X g bt W bq A I _ _ (fun b n j => qkv_apply T X g bt W bq xb hx b n j)
      (fun h n m => (slabs_apply x7 h n m).trans (hx7 h n m)) b n c) b n j

end Cert.KernelIdeal.Hand

end
-- ==== Proof.Host.lean ====
/-
  What the host operations before the kernel's call leave in the three arrays the call reads besides the arguments:
  the gathered relative-position bias attn_biases[:, idxs] (the same gather, through the same wrapped index table, as the
  reference's), and the two weight matrices narrowed to bf16, which on the extended reals are the matrices themselves.
-/
import proofs.«148307_j15985868275953_1_alg».proof.Proof.Gen.KernelIdeal.Frame
import proofs.«148307_j15985868275953_1_alg».proof.Proof.Gen.ReferenceIdeal.Read
import Idealize.ShloMosaic.Lib.StableHlo.Run

set_option maxRecDepth 65536

noncomputable section

namespace Cert.KernelIdeal.Hand

open Cert.KernelIdeal Cert.KernelIdeal.Gen Idealize.ShloMosaic Idealize.ShloMosaic.TcCoe Idealize.SL.Sem Idealize.ShloMosaic.StableHlo
open Cert.ReferenceIdeal.Read (val_main_v39)

variable (m : (ℓ : Loc nD τ sig) → Buf (Elt Ideal) ℓ)

/-- The bias array the call stages is the reference's gathered bias of the two arguments. -/
theorem V_bias (c : Dev nD) :
    (V m c main_v6 : S18x196x196.Idx → EReal)
      = val_main_v39 (F := Ideal) (m ((c : Thread nD τ).loc main_arg7)) (m ((c : Thread nD τ).loc main_arg8)) := by
  dsimp only [Gen.V, Gen.hostOps0]; after_results; rfl

/-- The QKV weight the call stages is the argument matrix. -/
theorem V_wqkv (c : Dev nD) :
    (V m c main_v7 : S576x3456.Idx → EReal) = m ((c : Thread nD τ).loc main_arg3) := by
  dsimp only [Gen.V, Gen.hostOps0]; after_results; rfl

/-- The projection weight the call stages is the argument matrix. -/
theorem V_wproj (c : Dev nD) :
    (V m c main_v8 : S2304x576.Idx → EReal) = m ((c : Thread nD τ).loc main_arg5) := by
  dsimp only [Gen.V, Gen.hostOps0]; after_results; rfl

end Cert.KernelIdeal.Hand

end
-- ==== Proof.Blocks.lean ====
/-
  From blocks to the array: after the kernel's run the result array is the reference's result function of the arguments.

  Grid point t stages rows 4t … 4t+3 of x (window 0) and writes rows 4t … 4t+3 of the result (window 8); every other
  window stages its whole array at every point.  So what point t writes back is, by the tile lemma, block t of the
  reference's result `refOut` (the reference's last stage as a function of the argument arrays), and the 64 blocks of
  4 rows cover the 256 rows: the array ends holding `refOut`.
-/
import proofs.«148307_j15985868275953_1_alg».proof.Proof.Gen.KernelIdeal.Value
import proofs.«148307_j15985868275953_1_alg».proof.Proof.Gen.ReferenceIdeal.Read
import proofs.«148307_j15985868275953_1_alg».proof.Proof.Tile
import proofs.«148307_j15985868275953_1_alg».proof.Proof.Host
import Idealize.ShloMosaic.Lib.ValueIdx
import Idealize.ShloMosaic.Lib.Pipeline.Value

set_option maxRecDepth 65536

noncomputable section

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)
open Cert.ReferenceIdeal.Read (val_main_v39 val_main_v63)

variable (m : (ℓ : Loc nD τ sig) → Buf (Elt Ideal) ℓ) (ρ : Dev nD → PrngReg)

/-- The reference's result as a function of the kernel program's argument arrays. -/
abbrev refOut (c : Dev nD) : S256x196x576.Idx → EReal :=
  val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- The printed index maps, decided over the 64 grid points: windows 0 and 8 are at block (t, 0, 0), all others at block 0. -/
theorem idx_facts : ∀ t : Fin cfg0.N,
    win0_0.index t (0 : Fin 3) = t.val ∧ win0_0.index t (1 : Fin 3) = 0 ∧ win0_0.index t (2 : Fin 3) = 0
    ∧ win0_8.index t (0 : Fin 3) = t.val ∧ win0_8.index t (1 : Fin 3) = 0 ∧ win0_8.index t (2 : Fin 3) = 0
    ∧ win0_1.index t (0 : Fin 1) = 0 ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 3) = 0 ∧ win0_7.index t (1 : Fin 3) = 0 ∧ win0_7.index t (2 : Fin 3) = 0 :=
  (by decide +kernel : ∀ t : Fin grid0.N, _)

/-- Every row block is some point's. -/
theorem idx_onto : ∀ q : Fin 64, ∃ t : Fin cfg0.N, win0_8.index t = ![q.val, 0, 0] :=
  (by decide +kernel : ∀ q : Fin 64, ∃ t : Fin grid0.N, win0_8.index t = ![q.val, 0, 0])

theorem N_eq : cfg0.N = 64 := by decide

/-- WHAT POINT t WRITES BACK is block t of the reference's result. -/
theorem flushed8_eq (c : Dev nD) (t : Fin cfg0.N) :
    (dats m 0 c).flushed 8 t = ((cfg0.win 8).blk t).view.read (Elt Ideal) (refOut m c) := by
  rw [Cert.KernelIdeal.Value.flushed8]
  obtain ⟨e00, e01, e02, e80, e81, e82, e1, e2, e30, e31, e4, e50, e51, e6, e70, e71, e72⟩ := idx_facts t
  have ht : t.val < 64 := lt_of_lt_of_eq t.isLt N_eq
  -- a window that stays at block 0 of an array of its own block's size stages the array itself
  have h1 : (iblk m c 1 t : Vec Ideal S576 .f32) = m ((c : Thread nD τ).loc main_arg1) := by
    funext y
    show V m c main_arg1 (((cfg0.win 1).blk t).view.emb y) = _
    rw [V_main_arg1]
    refine congrArg _ (funext fun a => Fin.ext ?_)
    match a with
    | ⟨0, _⟩ => show win0_1.index t (0 : Fin 1) * 576 + 1 * (y 0).val = (y 0).val; rw [e1]; omega
  have h2 : (iblk m c 2 t : Vec Ideal S576 .f32) = m ((c : Thread nD τ).loc main_arg2) := by
    funext y
    show V m c main_arg2 (((cfg0.win 2).blk t).view.emb y) = _
    rw [V_main_arg2]
    refine congrArg _ (funext fun a => Fin.ext ?_)
    match a with
    | ⟨0, _⟩ => show win0_2.index t (0 : Fin 1) * 576 + 1 * (y 0).val = (y 0).val; rw [e2]; omega
  have h3 : (iblk m c 3 t : Vec Ideal S576x3456 .bf16) = m ((c : Thread nD τ).loc main_arg3) := by
    funext y
    show V m c main_v7 (((cfg0.win 3).blk t).view.emb y) = _
    rw [V_wqkv]
    refine congrArg _ (funext fun a => Fin.ext ?_)
    match a with
    | ⟨0, _⟩ => show win0_3.index t (0 : Fin 2) * 576 + 1 * (y 0).val = (y 0).val; rw [e30]; omega
    | ⟨1, _⟩ => show win0_3.index t (1 : Fin 2) * 3456 + 1 * (y 1).val = (y 1).val; rw [e31]; omega
  have h4 : (iblk m c 4 t : Vec Ideal S3456 .f32) = m ((c : Thread nD τ).loc main_arg4) := by
    funext y
    show V m c main_arg4 (((cfg0.win 4).blk t).view.emb y) = _
    rw [V_main_arg4]
    refine congrArg _ (funext fun a => Fin.ext ?_)
    match a with
    | ⟨0, _⟩ => show win0_4.index t (0 : Fin 1) * 3456 + 1 * (y 0).val = (y 0).val; rw [e4]; omega
  have h5 : (iblk m c 5 t : Vec Ideal S2304x576 .bf16) = m ((c : Thread nD τ).loc main_arg5) := by
    funext y
    show V m c main_v8 (((cfg0.win 5).blk t).view.emb y) = _
    rw [V_wproj]
    refine congrArg _ (funext fun a => Fin.ext ?_)
    match a with
    | ⟨0, _⟩ => show win0_5.index t (0 : Fin 2) * 2304 + 1 * (y 0).val = (y 0).val; rw [e50]; omega
    | ⟨1, _⟩ => show win0_5.index t (1 : Fin 2) * 576 + 1 * (y 1).val = (y 1).val; rw [e51]; omega
  have h6 : (iblk m c 6 t : Vec Ideal S576 .f32) = m ((c : Thread nD τ).loc main_arg6) := by
    funext y
    show V m c main_arg6 (((cfg0.win 6).blk t).view.emb y) = _
    rw [V_main_arg6]
    refine congrArg _ (funext fun a => Fin.ext ?_)
    match a with
    | ⟨0, _⟩ => show win0_6.index t (0 : Fin 1) * 576 + 1 * (y 0).val = (y 0).val; rw [e6]; omega
  -- the x block is rows 4t … 4t+3 of x
  have hx : ∀ (b : Fin 4) (n : Fin 196) (d : Fin 576),
      (iblk m c 0 t : Vec Ideal S4x196x576 .f32) (ix3 b n d) = m ((c : Thread nD τ).loc main_arg0) (ix3 (brow ⟨t.val, ht⟩ b) n d) := by
    intro b n d
    show V m c main_arg0 (((cfg0.win 0).blk t).view.emb (ix3 b n d)) = _
    rw [V_main_arg0]
    refine congrArg _ (funext fun a => Fin.ext ?_)
    match a with
    | ⟨0, _⟩ => show win0_0.index t (0 : Fin 3) * 4 + 1 * b.val = 4 * t.val + b.val; rw [e00]; omega
    | ⟨1, _⟩ => show win0_0.index t (1 : Fin 3) * 196 + 1 * n.val = n.val; rw [e01]; omega
    | ⟨2, _⟩ => show win0_0.index t (2 : Fin 3) * 576 + 1 * d.val = d.val; rw [e02]; omega
  -- the bias block is the reference's gathered bias
  have hx7 : ∀ (h : Fin 18) (n k : Fin 196),
      (iblk m c 7 t : Vec Ideal S18x196x196 .f32) (ix3 h n k) = val_main_v39 (F := Ideal) (m ((c : Thread nD τ).loc main_arg7)) (m ((c : Thread nD τ).loc main_arg8)) (ix3 h n k) := by
    intro h n k
    show V m c main_v6 (((cfg0.win 7).blk t).view.emb (ix3 h n k)) = _
    rw [V_bias]
    refine congrArg _ (funext fun a => Fin.ext ?_)
    match a with
    | ⟨0, _⟩ => show win0_7.index t (0 : Fin 3) * 18 + 1 * h.val = h.val; rw [e70]; omega
    | ⟨1, _⟩ => show win0_7.index t (1 : Fin 3) * 196 + 1 * n.val = n.val; rw [e71]; omega
    | ⟨2, _⟩ => show win0_7.index t (2 : Fin 3) * 196 + 1 * k.val = k.val; rw [e72]; omega
  funext y
  obtain ⟨b, n, j, rfl⟩ : ∃ (b : Fin 4) (n : Fin 196) (j : Fin 576), y = ix3 b n j := ⟨y 0, y 1, y 2, eq_ix3 y⟩
  show out0_8 (F := Ideal) (iblk m c 0 t) (iblk m c 1 t) (iblk m c 2 t) (iblk m c 3 t) (iblk m c 4 t) (iblk m c 5 t) (iblk m c 6 t) (iblk m c 7 t) (ix3 b n j)
      = refOut m c (((cfg0.win 8).blk t).view.emb (ix3 b n j))
  have hemb : ((cfg0.win 8).blk t).view.emb (ix3 b n j) = ix3 (brow ⟨t.val, ht⟩ b) n j := by
    funext a; apply Fin.ext
    match a with
    | ⟨0, _⟩ => show win0_8.index t (0 : Fin 3) * 4 + 1 * b.val = 4 * t.val + b.val; rw [e80]; omega
    | ⟨1, _⟩ => show win0_8.index t (1 : Fin 3) * 196 + 1 * n.val = n.val; rw [e81]; omega
    | ⟨2, _⟩ => show win0_8.index t (2 : Fin 3) * 576 + 1 * j.val = j.val; rw [e82]; omega
  rw [hemb, h1, h2, h3, h4, h5, h6]
  exact tile_apply ⟨t.val, ht⟩ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8))
    (iblk m c 0 t) (m ((c : Thread nD τ).loc main_arg5)) (m ((c : Thread nD τ).loc main_arg6)) (iblk m c 7 t) hx hx7 b n j

/-- An index of the array is in point t's block iff each coordinate is in the block's range on its axis. -/
theorem mem_blk8 (t : Fin cfg0.N) (i : S256x196x576.Idx) :
    i ∈ ((cfg0.win 8).blk t).view.set ↔ ∀ a : Fin 3, win0_8.index t a * S4x196x576.size a ≤ (i a).val ∧ (i a).val < win0_8.index t a * S4x196x576.size a + S4x196x576.size a := by
  show i ∈ ((View.whole main_v9).slice (win0_8.rect t)).set ↔ _
  rw [View.set_slice_whole, Rect.mem_set_unit]
  exact Iff.rfl

/-- Row r of the array is in the block of the point at row block r / 4. -/
theorem cover8 (i : S256x196x576.Idx) :
    ∃ t : Fin cfg0.N, (cfg0.win 8).flush t = true ∧ i ∈ ((cfg0.win 8).blk t).view.set := by
  have hi0 : (i 0).val < 256 := (i 0).isLt
  have hi1 : (i 1).val < 196 := (i 1).isLt
  have hi2 : (i 2).val < 576 := (i 2).isLt
  obtain ⟨t, ht⟩ := idx_onto ⟨(i 0).val / 4, by omega⟩
  have q0 : win0_8.index t (0 : Fin 3) = (i 0).val / 4 := congrFun ht 0
  have q1 : win0_8.index t (1 : Fin 3) = 0 := congrFun ht 1
  have q2 : win0_8.index t (2 : Fin 3) = 0 := congrFun ht 2
  refine ⟨t, flush0_8 t, ?_⟩
  rw [mem_blk8]
  intro a
  match a with
  | ⟨0, _⟩ => show win0_8.index t (0 : Fin 3) * 4 ≤ (i 0).val ∧ (i 0).val < win0_8.index t (0 : Fin 3) * 4 + 4; omega
  | ⟨1, _⟩ => show win0_8.index t (1 : Fin 3) * 196 ≤ (i 1).val ∧ (i 1).val < win0_8.index t (1 : Fin 3) * 196 + 196; omega
  | ⟨2, _⟩ => show win0_8.index t (2 : Fin 3) * 576 ≤ (i 2).val ∧ (i 2).val < win0_8.index t (2 : Fin 3) * 576 + 576; omega

/-- THE ARRAY after the run is the reference's result of the arguments. -/
theorem final8 (c : Dev nD) : (dats m 0 c).arrAt 8 cfg0.N = refOut m c :=
  (dats m 0 c).arrAt_eq_of_cover 8 (refOut m c) (fun t _ => flushed8_eq m c t) cover8

/-- The kernel program's run: the result array at the reference's result function of the arguments, the arguments unchanged. -/
theorem run : θ_run defs (onTc (τ := τ) (main (F := Ideal))) ⟨m, fun _ => 0, ρ⟩ fun r => ∀ c : Dev nD,
      r.2.mem ((c : Thread nD τ).loc main_v9) = refOut m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final8 m c), (h c).2⟩) (Cert.KernelIdeal.Value.run_blocks m ρ)

end Cert.KernelIdeal.Hand

end
-- ==== Proof.lean ====
/-
  The kernel and its reference compute one function on the extended reals.

  The program is a fused attention block on x[256,196,576]: layer normalisation over the last axis, a [576,3456] product
  plus bias whose 3456 columns are 18 heads × (32 query + 32 key + 128 value), per head the logits (q·kᵀ)·c + bias_h
  with bias = attn_biases[:, idxs] gathered on the host, a row softmax exp(s − max s) / Σ exp(s − max s), the product with v,
  the 18 head outputs side by side, and a [2304,576] product plus bias.  The kernel does this on tiles of 4 batch rows,
  one tile per grid point, with its matrix operands narrowed to bf16; the reference does it on whole arrays in
  [256,18,196,·] layouts.  On the extended reals a change of float format is the identity and a sum does not depend on how it
  is tiled, so every array the kernel forms on tile T is the reference's array of the same stage restricted to rows
  4T … 4T+3 (TileQKV, TileSoftmax, TileHead, TileCat, TileProj, chained in Tile); the 64 tiles cover the 256 rows
  (Blocks), so the kernel's result array is the reference's result function of the arguments, and the two runs from
  memories that agree on the arguments end with equal results.  No step needs the inputs to be finite.
  The three frame claims are the generated frames (the reference's: its generated run with the result dropped), and
  the idealisation ledger is empty.
-/
import proofs.«148307_j15985868275953_1_alg».proof.Defs
import proofs.«148307_j15985868275953_1_alg».proof.Proof.Gen.Kernel
import proofs.«148307_j15985868275953_1_alg».proof.Proof.Gen.Kernel.Skeleton
import proofs.«148307_j15985868275953_1_alg».proof.Proof.Gen.Kernel.Launch
import proofs.«148307_j15985868275953_1_alg».proof.Proof.Gen.Kernel.Points
import proofs.«148307_j15985868275953_1_alg».proof.Proof.Gen.Kernel.Frame
import proofs.«148307_j15985868275953_1_alg».proof.Proof.Gen.KernelIdeal
import proofs.«148307_j15985868275953_1_alg».proof.Proof.Gen.KernelIdeal.Skeleton
import proofs.«148307_j15985868275953_1_alg».proof.Proof.Gen.KernelIdeal.Launch
import proofs.«148307_j15985868275953_1_alg».proof.Proof.Gen.KernelIdeal.Points
import proofs.«148307_j15985868275953_1_alg».proof.Proof.Gen.KernelIdeal.Frame
import proofs.«148307_j15985868275953_1_alg».proof.Proof.Gen.ReferenceIdeal
import proofs.«148307_j15985868275953_1_alg».proof.Proof.Gen.Pre_finite_inputs
import proofs.«148307_j15985868275953_1_alg».proof.Proof.Gen.KernelIdeal.Value
import proofs.«148307_j15985868275953_1_alg».proof.Proof.Gen.ReferenceIdeal.Run
import proofs.«148307_j15985868275953_1_alg».proof.Proof.Gen.ReferenceIdeal.Read
import proofs.«148307_j15985868275953_1_alg».proof.Proof.Blocks
import Idealize.ShloMosaic.Adequacy
import Idealize.ShloMosaic.Init

noncomputable section

namespace Cert.Proof

open Idealize.ShloMosaic Idealize.ShloMosaic.TcCoe Idealize.SL.Sem

/-- From memories agreeing on the nine arguments both programs end, the kernel's result array and the reference's
    at the reference's last stage as a function of the (kernel program's) arguments. -/
theorem algebraic : Cert.algebraic_KernelIdeal_ReferenceIdeal := by
  intro m ρ m' ρ' _ hagree
  refine ⟨fun c => Cert.KernelIdeal.Hand.refOut m c, Cert.KernelIdeal.Hand.run m ρ, ?_⟩
  refine (θ_run Cert.ReferenceIdeal.defs _ _).mono (fun _ h c => ⟨?_, (h c).2⟩)
    (Cert.ReferenceIdeal.Value.run (F := Ideal) m' ρ')
  obtain ⟨a0, a1, a2, a3, a4, a5, a6, a7, a8⟩ := hagree c
  rw [(h c).1, Cert.ReferenceIdeal.Read.val_main_v63_eq, a0, a1, a2, a3, a4, a5, a6, a7, a8]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
